-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v69) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x3 : Shape := ⟨2, ![100000, 3]⟩
abbrev S128x128 : Shape := ⟨2, ![128, 128]⟩
abbrev S128 : Shape := ⟨1, ![128]⟩
abbrev S50000 : Shape := ⟨1, ![50000]⟩
abbrev S50000x8 : Shape := ⟨2, ![50000, 8]⟩
abbrev S2x800000 : Shape := ⟨2, ![2, 800000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S100000x128 .f32) (main_arg1 : FVec F S100000x3 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : IVec S50000 32) (main_arg9 : IVec S50000x8 32) (main_arg10 : IVec S2x800000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x3 .f32 := Host.absf main_arg1
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S100000x128 : Shape := ⟨2, ![100000, 128]⟩
abbrev S100000x3 : Shape := ⟨2, ![100000, 3]⟩
abbrev S128x128 : Shape := ⟨2, ![128, 128]⟩
abbrev S128 : Shape := ⟨1, ![128]⟩
abbrev S50000 : Shape := ⟨1, ![50000]⟩
abbrev S50000x8 : Shape := ⟨2, ![50000, 8]⟩
abbrev S2x800000 : Shape := ⟨2, ![2, 800000]⟩
abbrev S_ : Shape := ⟨0, ![]⟩
abbrev S50000x1 : Shape := ⟨2, ![50000, 1]⟩
abbrev S50000x128 : Shape := ⟨2, ![50000, 128]⟩
abbrev S50000x8x1 : Shape := ⟨3, ![50000, 8, 1]⟩
abbrev S50000x8x128 : Shape := ⟨3, ![50000, 8, 128]⟩
abbrev S1x128 : Shape := ⟨2, ![1, 128]⟩
abbrev S1000x8x128 : Shape := ⟨3, ![1000, 8, 128]⟩
abbrev S1000x128 : Shape := ⟨2, ![1000, 128]⟩
abbrev S8000x128 : Shape := ⟨2, ![8000, 128]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S850000x128 : Shape := ⟨2, ![850000, 128]⟩
abbrev S50000x3 : Shape := ⟨2, ![50000, 3]⟩

abbrev nBuf : Space → Nat
  | .hbm => 100
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S100000x3, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S50000, .i32⟩
  | .hbm, ⟨9, _⟩ => ⟨S50000x8, .i32⟩
  | .hbm, ⟨10, _⟩ => ⟨S2x800000, .i32⟩
  | .hbm, ⟨11, _⟩ => ⟨S_, .i32⟩
  | .hbm, ⟨12, _⟩ => ⟨S50000, .i32⟩
  | .hbm, ⟨13, _⟩ => ⟨S50000, .i1⟩
  | .hbm, ⟨14, _⟩ => ⟨S_, .i32⟩
  | .hbm, ⟨15, _⟩ => ⟨S50000, .i32⟩
  | .hbm, ⟨16, _⟩ => ⟨S50000, .i32⟩
  | .hbm, ⟨17, _⟩ => ⟨S50000, .i32⟩
  | .hbm, ⟨18, _⟩ => ⟨S50000x1, .i32⟩
  | .hbm, ⟨19, _⟩ => ⟨S50000x128, .f32⟩
  | .hbm, ⟨20, _⟩ => ⟨S_, .i32⟩
  | .hbm, ⟨21, _⟩ => ⟨S50000x8, .i32⟩
  | .hbm, ⟨22, _⟩ => ⟨S50000x8, .i1⟩
  | .hbm, ⟨23, _⟩ => ⟨S_, .i32⟩
  | .hbm, ⟨24, _⟩ => ⟨S50000x8, .i32⟩
  | .hbm, ⟨25, _⟩ => ⟨S50000x8, .i32⟩
  | .hbm, ⟨26, _⟩ => ⟨S50000x8, .i32⟩
  | .hbm, ⟨27, _⟩ => ⟨S50000x8x1, .i32⟩
  | .hbm, ⟨28, _⟩ => ⟨S50000x8x128, .f32⟩
  | .hbm, ⟨29, _⟩ => ⟨S1x128, .f32⟩
  | .hbm, ⟨30, _⟩ => ⟨S1x128, .f32⟩
  | .hbm, ⟨31, _⟩ => ⟨S50000x128, .f32⟩
  | .hbm, ⟨32, _⟩ => ⟨S50000, .i32⟩
  | .hbm, ⟨33, _⟩ => ⟨S1x800000, .i32⟩
  | .hbm, ⟨34, _⟩ => ⟨S800000, .i32⟩
  | .hbm, ⟨35, _⟩ => ⟨S850000, .i32⟩
  | .hbm, ⟨36, _⟩ => ⟨S1x800000, .i32⟩
  | .hbm, ⟨37, _⟩ => ⟨S800000, .i32⟩
  | .hbm, ⟨38, _⟩ => ⟨S850000, .i32⟩
  | .hbm, ⟨39, _⟩ => ⟨S_, .f32⟩
  | .hbm, ⟨40, _⟩ => ⟨S850000, .f32⟩
  | .hbm, ⟨41, _⟩ => ⟨S_, .f32⟩
  | .hbm, ⟨42, _⟩ => ⟨S50000, .f32⟩
  | .hbm, ⟨43, _⟩ => ⟨S850000x1, .i32⟩
  | .hbm, ⟨44, _⟩ => ⟨S50000, .f32⟩
  | .hbm, ⟨45, _⟩ => ⟨S_, .f32⟩
  | .hbm, ⟨46, _⟩ => ⟨S50000, .f32⟩
  | .hbm, ⟨47, _⟩ => ⟨S50000, .i1⟩
  | .hbm, ⟨48, _⟩ => ⟨S50000, .f32⟩
  | .hbm, ⟨49, _⟩ => ⟨S_, .f32⟩
  | .hbm, ⟨50, _⟩ => ⟨S_, .f32⟩
  | .hbm, ⟨51, _⟩ => ⟨S50000, .f32⟩
  | .hbm, ⟨52, _⟩ => ⟨S50000, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000, .f32⟩
  | .hbm, ⟨62, _⟩ => ⟨S_, .i32⟩
  | .hbm, ⟨63, _⟩ => ⟨S850000, .i32⟩
  | .hbm, ⟨64, _⟩ => ⟨S850000, .i1⟩
  | .hbm, ⟨65, _⟩ => ⟨S_, .i32⟩
  | .hbm, ⟨66, _⟩ => ⟨S850000, .i32⟩
  | .hbm, ⟨67, _⟩ => ⟨S850000, .i32⟩
  | .hbm, ⟨68, _⟩ => ⟨S850000, .i32⟩
  | .hbm, ⟨69, _⟩ => ⟨S850000x1, .i32⟩
  | .hbm, ⟨70, _⟩ => ⟨S850000, .f32⟩
  | .hbm, ⟨71, _⟩ => ⟨S850000, .f32⟩
  | .hbm, ⟨72, _⟩ => ⟨S850000x1, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x128, .f32⟩
  | .hbm, ⟨82, _⟩ => ⟨S850000x128, .f32⟩
  | .hbm, ⟨83, _⟩ => ⟨S850000x128, .f32⟩
  | .hbm, ⟨84, _⟩ => ⟨S_, .f32⟩
  | .hbm, ⟨85, _⟩ => ⟨S50000x128, .f32⟩
  | .hbm, ⟨86, _⟩ => ⟨S850000x1, .i32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S_, .i32⟩
  | .hbm, ⟨92, _⟩ => ⟨S50000, .i32⟩
  | .hbm, ⟨93, _⟩ => ⟨S50000, .i1⟩
  | .hbm, ⟨94, _⟩ => ⟨S_, .i32⟩
  | .hbm, ⟨95, _⟩ => ⟨S50000, .i32⟩
  | .hbm, ⟨96, _⟩ => ⟨S50000, .i32⟩
  | .hbm, ⟨97, _⟩ => ⟨S50000, .i32⟩
  | .hbm, ⟨98, _⟩ => ⟨S50000x1, .i32⟩
  | .hbm, ⟨99, _⟩ => ⟨S50000x3, .f32⟩
  | .local _ .vmem, ⟨0, _⟩ => ⟨S1000x8x128, .f32⟩
  | .local _ .vmem, ⟨1, _⟩ => ⟨S1000x8x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1000x128, .f32⟩
  | .local _ .vmem, ⟨8, _⟩ => ⟨S1000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_call0_v0 : Ref sig .tc := ⟨.hbm, 50, rfl⟩
abbrev main_call0_v1 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_8 : Ref sig .tc := ⟨.hbm, 62, rfl⟩
abbrev main_v39 : Ref sig .tc := ⟨.hbm, 63, rfl⟩
abbrev main_v40 : Ref sig .tc := ⟨.hbm, 64, rfl⟩
abbrev main_c_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_c_11 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S50000x8 : S_.BroadcastsInDim S50000x8 (![] : Fin 0 → Fin S50000x8.rank)
  bcast_S50000x8_S50000x8x1_0_1 : S50000x8.BroadcastsInDim S50000x8x1 (![0, 1] : Fin 2 → Fin S50000x8x1.rank)
  shapeCasts_S128_S1x128 : S128.ShapeCasts S1x128
  inb_S1000x8x128_S1000x8x128_0_0_0 : ∀ a, (![0, 0, 0] : Fin 3 → Nat) a + S1000x8x128.size a ≤ S1000x8x128.size a
  h_S1000x8x128 : 0 < S1000x8x128.numel
  shapeCasts_S1000x8x128_S1000x8x128 : S1000x8x128.ShapeCasts S1000x8x128
  shapeCasts_S1000x8x128_S8000x128 : S1000x8x128.ShapeCasts S8000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  shapeCasts_S8000x128_S1000x8x128 : S8000x128.ShapeCasts S1000x8x128
  reduces_S1000x8x128_S1000x128 : S1000x8x128.Reduces [1] S1000x128
  inb_S1000x128_S1000x128_0_0 : ∀ a, (![0, 0] : Fin 2 → Nat) a + S1000x128.size a ≤ S1000x128.size a
  h_S1000x128 : 0 < S1000x128.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S100000x128_S50000x1_S50000x128_1_0_n_n_0_1_1128_wf : GatherDims.WF S100000x128 S50000x1 S50000x128 [1] [0] [] [0] [] 1 ![1, 128]
  gather_S50000x128_S50000x8x1_S50000x8x128_2_0_n_n_0_2_1128_wf : GatherDims.WF S50000x128 S50000x8x1 S50000x8x128 [2] [0] [] [0] [] 2 ![1, 128]
  dot_S8000x128_S128x128_S8000x128_1_0_0_1_n_n_wf : DotDims.WF S8000x128 S128x128 S8000x128 [1] [0] [0] [1] [] []
  dot_S1000x128_S128x128_S1000x128_1_0_0_1_n_n_wf : DotDims.WF S1000x128 S128x128 S1000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S100000x3_S50000x1_S50000x3_1_0_n_n_0_1_13_wf : GatherDims.WF S100000x3 S50000x1 S50000x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x8x128.size a ≤ S50000x8x128.size a
  hwx0_0 : ∀ i : grid0.Coords, EltTy.bits .f32 = 32 ∨ (Rect.block (s := S50000x8x128) S1000x8x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x128.size a ≤ S50000x128.size a
  hwx0_6 : ∀ i : grid0.Coords, EltTy.bits .f32 = 32 ∨ (Rect.block (s := S50000x128) S1000x128.size (cc0_transform_6 i) (hinb0_6 i)).WholeWords (EltTy.packing .f32)

variable [Facts₀]

def gather_S100000x128_S50000x1_S50000x128_1_0_n_n_0_1_1128 : GatherDims S100000x128 S50000x1 S50000x128 where
  offsetDims := [1]
  collapsedSliceDims := [0]
  operandBatchingDims := []
  startIndicesBatchingDims := []
  startIndexMap := [0]
  indexVectorDim := 1
  sliceSizes := ![1, 128]
  wf := gather_S100000x128_S50000x1_S50000x128_1_0_n_n_0_1_1128_wf
def gather_S50000x128_S50000x8x1_S50000x8x128_2_0_n_n_0_2_1128 : GatherDims S50000x128 S50000x8x1 S50000x8x128 where
  offsetDims := [2]
  collapsedSliceDims := [0]
  operandBatchingDims := []
  startIndicesBatchingDims := []
  startIndexMap := [0]
  indexVectorDim := 2
  sliceSizes := ![1, 128]
  wf := gather_S50000x128_S50000x8x1_S50000x8x128_2_0_n_n_0_2_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S100000x3_S50000x1_S50000x3_1_0_n_n_0_1_13 : GatherDims S100000x3 S50000x1 S50000x3 where
  offsetDims := [1]
  collapsedSliceDims := [0]
  operandBatchingDims := []
  startIndicesBatchingDims := []
  startIndexMap := [0]
  indexVectorDim := 1
  sliceSizes := ![1, 3]
  wf := gather_S100000x3_S50000x1_S50000x3_1_0_n_n_0_1_13_wf

abbrev win0_0 : Pipeline.Window sig grid0 :=
  Pipeline.Window.ofSpec (Memref.whole main_v13) S1000x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S100000x3 : Shape := ⟨2, ![100000, 3]⟩
abbrev S128x128 : Shape := ⟨2, ![128, 128]⟩
abbrev S128 : Shape := ⟨1, ![128]⟩
abbrev S50000 : Shape := ⟨1, ![50000]⟩
abbrev S50000x8 : Shape := ⟨2, ![50000, 8]⟩
abbrev S2x800000 : Shape := ⟨2, ![2, 800000]⟩
abbrev S_ : Shape := ⟨0, ![]⟩
abbrev S50000x1 : Shape := ⟨2, ![50000, 1]⟩
abbrev S50000x128 : Shape := ⟨2, ![50000, 128]⟩
abbrev S50000x8x1 : Shape := ⟨3, ![50000, 8, 1]⟩
abbrev S50000x8x128 : Shape := ⟨3, ![50000, 8, 128]⟩
abbrev S1x1x128 : Shape := ⟨3, ![1, 1, 128]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S850000x128 : Shape := ⟨2, ![850000, 128]⟩
abbrev S1x128 : Shape := ⟨2, ![1, 128]⟩
abbrev S50000x3 : Shape := ⟨2, ![50000, 3]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x3, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S50000, .i32⟩
  | .hbm, ⟨9, _⟩ => ⟨S50000x8, .i32⟩
  | .hbm, ⟨10, _⟩ => ⟨S2x800000, .i32⟩
  | .hbm, ⟨11, _⟩ => ⟨S_, .i32⟩
  | .hbm, ⟨12, _⟩ => ⟨S50000, .i32⟩
  | .hbm, ⟨13, _⟩ => ⟨S50000, .i1⟩
  | .hbm, ⟨14, _⟩ => ⟨S_, .i32⟩
  | .hbm, ⟨15, _⟩ => ⟨S50000, .i32⟩
  | .hbm, ⟨16, _⟩ => ⟨S50000, .i32⟩
  | .hbm, ⟨17, _⟩ => ⟨S50000, .i32⟩
  | .hbm, ⟨18, _⟩ => ⟨S50000x1, .i32⟩
  | .hbm, ⟨19, _⟩ => ⟨S50000x128, .f32⟩
  | .hbm, ⟨20, _⟩ => ⟨S_, .i32⟩
  | .hbm, ⟨21, _⟩ => ⟨S50000x8, .i32⟩
  | .hbm, ⟨22, _⟩ => ⟨S50000x8, .i1⟩
  | .hbm, ⟨23, _⟩ => ⟨S_, .i32⟩
  | .hbm, ⟨24, _⟩ => ⟨S50000x8, .i32⟩
  | .hbm, ⟨25, _⟩ => ⟨S50000x8, .i32⟩
  | .hbm, ⟨26, _⟩ => ⟨S50000x8, .i32⟩
  | .hbm, ⟨27, _⟩ => ⟨S50000x8x1, .i32⟩
  | .hbm, ⟨28, _⟩ => ⟨S50000x8x128, .f32⟩
  | .hbm, ⟨29, _⟩ => ⟨S50000x8x128, .f32⟩
  | .hbm, ⟨30, _⟩ => ⟨S1x1x128, .f32⟩
  | .hbm, ⟨31, _⟩ => ⟨S50000x8x128, .f32⟩
  | .hbm, ⟨32, _⟩ => ⟨S50000x8x128, .f32⟩
  | .hbm, ⟨33, _⟩ => ⟨S_, .f32⟩
  | .hbm, ⟨34, _⟩ => ⟨S50000x8x128, .f32⟩
  | .hbm, ⟨35, _⟩ => ⟨S50000x8x128, .f32⟩
  | .hbm, ⟨36, _⟩ => ⟨S50000x8x128, .f32⟩
  | .hbm, ⟨37, _⟩ => ⟨S1x1x128, .f32⟩
  | .hbm, ⟨38, _⟩ => ⟨S50000x8x128, .f32⟩
  | .hbm, ⟨39, _⟩ => ⟨S50000x8x128, .f32⟩
  | .hbm, ⟨40, _⟩ => ⟨S_, .f32⟩
  | .hbm, ⟨41, _⟩ => ⟨S50000x128, .f32⟩
  | .hbm, ⟨42, _⟩ => ⟨S50000, .i32⟩
  | .hbm, ⟨43, _⟩ => ⟨S1x800000, .i32⟩
  | .hbm, ⟨44, _⟩ => ⟨S800000, .i32⟩
  | .hbm, ⟨45, _⟩ => ⟨S850000, .i32⟩
  | .hbm, ⟨46, _⟩ => ⟨S1x800000, .i32⟩
  | .hbm, ⟨47, _⟩ => ⟨S800000, .i32⟩
  | .hbm, ⟨48, _⟩ => ⟨S850000, .i32⟩
  | .hbm, ⟨49, _⟩ => ⟨S_, .f32⟩
  | .hbm, ⟨50, _⟩ => ⟨S850000, .f32⟩
  | .hbm, ⟨51, _⟩ => ⟨S_, .f32⟩
  | .hbm, ⟨52, _⟩ => ⟨S50000, .f32⟩
  | .hbm, ⟨53, _⟩ => ⟨S850000x1, .i32⟩
  | .hbm, ⟨54, _⟩ => ⟨S50000, .f32⟩
  | .hbm, ⟨55, _⟩ => ⟨S_, .f32⟩
  | .hbm, ⟨56, _⟩ => ⟨S50000, .f32⟩
  | .hbm, ⟨57, _⟩ => ⟨S50000, .i1⟩
  | .hbm, ⟨58, _⟩ => ⟨S50000, .f32⟩
  | .hbm, ⟨59, _⟩ => ⟨S_, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x128, .f32⟩
  | .hbm, ⟨64, _⟩ => ⟨S_, .i32⟩
  | .hbm, ⟨65, _⟩ => ⟨S850000, .i32⟩
  | .hbm, ⟨66, _⟩ => ⟨S850000, .i1⟩
  | .hbm, ⟨67, _⟩ => ⟨S_, .i32⟩
  | .hbm, ⟨68, _⟩ => ⟨S850000, .i32⟩
  | .hbm, ⟨69, _⟩ => ⟨S850000, .i32⟩
  | .hbm, ⟨70, _⟩ => ⟨S850000, .i32⟩
  | .hbm, ⟨71, _⟩ => ⟨S850000x1, .i32⟩
  | .hbm, ⟨72, _⟩ => ⟨S850000, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000, .f32⟩
  | .hbm, ⟨82, _⟩ => ⟨S850000, .f32⟩
  | .hbm, ⟨83, _⟩ => ⟨S850000x1, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000x128, .f32⟩
  | .hbm, ⟨93, _⟩ => ⟨S850000x128, .f32⟩
  | .hbm, ⟨94, _⟩ => ⟨S850000x128, .f32⟩
  | .hbm, ⟨95, _⟩ => ⟨S_, .f32⟩
  | .hbm, ⟨96, _⟩ => ⟨S50000x128, .f32⟩
  | .hbm, ⟨97, _⟩ => ⟨S850000x1, .i32⟩
  | .hbm, ⟨98, _⟩ => ⟨S50000x128, .f32⟩
  | .hbm, ⟨99, _⟩ => ⟨S1x128, .f32⟩
  | .hbm, ⟨100, _⟩ => ⟨S50000x128, .f32⟩
  | .hbm, ⟨101, _⟩ => ⟨S50000x128, .f32⟩
  | .hbm, ⟨102, _⟩ => ⟨S_, .i32⟩
  | .hbm, ⟨103, _⟩ => ⟨S50000, .i32⟩
  | .hbm, ⟨104, _⟩ => ⟨S50000, .i1⟩
  | .hbm, ⟨105, _⟩ => ⟨S_, .i32⟩
  | .hbm, ⟨106, _⟩ => ⟨S50000, .i32⟩
  | .hbm, ⟨107, _⟩ => ⟨S50000, .i32⟩
  | .hbm, ⟨108, _⟩ => ⟨S50000, .i32⟩
  | .hbm, ⟨109, _⟩ => ⟨S50000x1, .i32⟩
  | .hbm, ⟨110, _⟩ => ⟨S50000x3, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call0_cst : Ref sig .tc := ⟨.hbm, 33, rfl⟩
abbrev main_call0_v0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_call1_v0 : Ref sig .tc := ⟨.hbm, 60, rfl⟩
abbrev main_call1_v1 : Ref sig .tc := ⟨.hbm, 61, rfl⟩
abbrev main_v38 : Ref sig .tc := ⟨.hbm, 62, rfl⟩
abbrev main_v39 : Ref sig .tc := ⟨.hbm, 63, rfl⟩
abbrev main_c_7 : Ref sig .tc := ⟨.hbm, 64, rfl⟩
abbrev main_v40 : Ref sig .tc := ⟨.hbm, 65, rfl⟩
abbrev main_v41 : Ref sig .tc := ⟨.hbm, 66, rfl⟩
abbrev main_c_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_9 : Ref sig .tc := ⟨.hbm, 73, rfl⟩
abbrev main_v47 : Ref sig .tc := ⟨.hbm, 74, rfl⟩
abbrev main_v48 : Ref sig .tc := ⟨.hbm, 75, rfl⟩
abbrev main_c_10 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_11 : Ref sig .tc := ⟨.hbm, 84, rfl⟩
abbrev main_v56 : Ref sig .tc := ⟨.hbm, 85, rfl⟩
abbrev main_v57 : Ref sig .tc := ⟨.hbm, 86, rfl⟩
abbrev main_c_12 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_13 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_14 : Ref sig .tc := ⟨.hbm, 102, rfl⟩
abbrev main_v71 : Ref sig .tc := ⟨.hbm, 103, rfl⟩
abbrev main_v72 : Ref sig .tc := ⟨.hbm, 104, rfl⟩
abbrev main_c_15 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S50000x8 : S_.BroadcastsInDim S50000x8 (![] : Fin 0 → Fin S50000x8.rank)
  bcast_S50000x8_S50000x8x1_0_1 : S50000x8.BroadcastsInDim S50000x8x1 (![0, 1] : Fin 2 → Fin S50000x8x1.rank)
  bcast_S128_S1x1x128_2 : S128.BroadcastsInDim S1x1x128 (![2] : Fin 1 → Fin S1x1x128.rank)
  bcast_S1x1x128_S50000x8x128_0_1_2 : S1x1x128.BroadcastsInDim S50000x8x128 (![0, 1, 2] : Fin 3 → Fin S50000x8x128.rank)
  bcast_S_S50000x8x128 : S_.BroadcastsInDim S50000x8x128 (![] : Fin 0 → Fin S50000x8x128.rank)
  reducesTo_S50000x8x128_S50000x128_d1 : S50000x8x128.ReducesTo [1] S50000x128
  h_S_ : 0 < S_.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S100000x128_S50000x1_S50000x128_1_0_n_n_0_1_1128_wf : GatherDims.WF S100000x128 S50000x1 S50000x128 [1] [0] [] [0] [] 1 ![1, 128]
  gather_S50000x128_S50000x8x1_S50000x8x128_2_0_n_n_0_2_1128_wf : GatherDims.WF S50000x128 S50000x8x1 S50000x8x128 [2] [0] [] [0] [] 2 ![1, 128]
  dot_S50000x8x128_S128x128_S50000x8x128_2_0_01_1_n_n_wf : DotDims.WF S50000x8x128 S128x128 S50000x8x128 [2] [0] [0, 1] [1] [] []
  scatter_S50000_S850000x1_S850000_n_0_0_1_wf : ScatterDims.WF S50000 S850000x1 S850000 [] [0] [0] 1
  dot_S50000x128_S128x128_S50000x128_1_0_0_1_n_n_wf : DotDims.WF S50000x128 S128x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S100000x3_S50000x1_S50000x3_1_0_n_n_0_1_13_wf : GatherDims.WF S100000x3 S50000x1 S50000x3 [1] [0] [] [0] [] 1 ![1, 3]

variable [Facts₀]

def gather_S100000x128_S50000x1_S50000x128_1_0_n_n_0_1_1128 : GatherDims S100000x128 S50000x1 S50000x128 where
  offsetDims := [1]
  collapsedSliceDims := [0]
  operandBatchingDims := []
  startIndicesBatchingDims := []
  startIndexMap := [0]
  indexVectorDim := 1
  sliceSizes := ![1, 128]
  wf := gather_S100000x128_S50000x1_S50000x128_1_0_n_n_0_1_1128_wf
def gather_S50000x128_S50000x8x1_S50000x8x128_2_0_n_n_0_2_1128 : GatherDims S50000x128 S50000x8x1 S50000x8x128 where
  offsetDims := [2]
  collapsedSliceDims := [0]
  operandBatchingDims := []
  startIndicesBatchingDims := []
  startIndexMap := [0]
  indexVectorDim := 2
  sliceSizes := ![1, 128]
  wf := gather_S50000x128_S50000x8x1_S50000x8x128_2_0_n_n_0_2_1128_wf
def dot_S50000x8x128_S128x128_S50000x8x128_2_0_01_1_n_n : DotDims S50000x8x128 S128x128 S50000x8x128 where
  lhsContracting := [2]
  rhsContracting := [0]
  lhsNonContracting := [0, 1]
  rhsNonContracting := [1]
  lhsBatch := []
  rhsBatch := []
  wf := dot_S50000x8x128_S128x128_S50000x8x128_2_0_01_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S100000x3_S50000x1_S50000x3_1_0_n_n_0_1_13 : GatherDims S100000x3 S50000x1 S50000x3 where
  offsetDims := [1]
  collapsedSliceDims := [0]
  operandBatchingDims := []
  startIndicesBatchingDims := []
  startIndexMap := [0]
  indexVectorDim := 1
  sliceSizes := ![1, 3]
  wf := gather_S100000x3_S50000x1_S50000x3_1_0_n_n_0_1_13_wf

class Facts : Prop extends Facts₀ where

variable [Facts]
-- ==== Proof.HostK.lean ====
/-
  The host side of the word-level kernel program's frame, at any float instance.

  @main is: twenty host operations (the two gathers that build the neighbour-feature array, and the two bias
  reshapes), the one pallas_call, then sixty-eight host operations (the edge lists with self loops, the degree
  scatter-add, its inverse square root, the per-edge coefficients, the gather of projected features, the
  aggregation scatter-add plus bias, and the gather of sampled positions).  Here: the buffers' contents when the
  region is entered; that @main is the host prefix, the region, and the later lines as its continuation; and what
  the launch theorem asks of the later lines — they touch unscoped buffers only, allocate nothing, write none of
  the seven arrays the pipeline stages, and (for the frame claim) write none of @main's eleven arguments.
-/
import proofs.«104351_j4758823764634_1_alg».proof.Proof.Gen.Kernel.Launch
import proofs.«104351_j4758823764634_1_alg».proof.Proof.Gen.Kernel.Points
import Idealize.ShloMosaic.Lib.Pipeline.FrameBody
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! ## The contents the region finds -/

/-- Core `c`'s buffer contents when the region is entered: the launch memory after the twenty host operations
    before the pallas_call. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The later lines, in @main's order: up to the inlined `where`, the `where`, and the rest. -/
abbrev laterOps : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-! ## @main around the region -/

set_option maxHeartbeats 4000000 in
/-- @main is the host prefix, then the region continued by the later lines. -/
theorem hmain (𝒱₀ : Variants) : Pipeline.HMainK (Ix := Unit) (Name := ℕ) (U := UR sig nD τ) (Lvl := ℕ) cfgs 0 defs₀ 𝒱₀ m (main (F := F)) (fun c b => V0 m c (Proc.devRef .tc b))
      (fun _ => Pipeline.chain ((laterOps (F := F)).map StableHlo.seq)) :=
  Pipeline.hmain_around cfgs 0 defs₀ 𝒱₀ m main [hostOps0] laterOps (by simp only [List.Forall]; exact hostOps0_sub)
    (by simp only [List.Forall]; exact hostOps0_fresh)
    (fun c => by rw [main_chain c]; simp only [laterOps, List.map_cons, List.map_nil, List.cons_append, List.nil_append])

/-! ## What the launch asks of the later lines -/

/-- Each later line's buffers are unscoped TensorCore references, so (nothing being prefetched) each is one of the
    pipeline's arrays or a buffer that bypasses the region. -/
theorem later_sub : ∀ ops ∈ (laterOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [laterOps, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem later_fresh : ∀ ops ∈ (laterOps : List (List (HloOp τ sig (Elt F)))), ∀ op ∈ ops, op.fresh = ∅ := by
  intro ops hops op hop
  simp only [laterOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

set_option maxHeartbeats 4000000 in
/-- No later line writes `b`, for `b` any buffer written before the region ends: each line writes only its own
    result buffer, and the results of the later lines are buffers 32 and up. Stated line by line over the
    flattened list, for the seven arrays and the eleven arguments at once. -/
theorem later_writes : (List.flatten (laterOps : List (List (HloOp τ sig (Elt F))))).Forall fun op =>
    ∀ b ∈ ([main_arg0, main_arg1, main_arg2, main_arg3, main_arg4, main_arg5, main_arg6, main_arg7, main_arg8, main_arg9, main_arg10,
        main_v13, main_v14, main_v15, main_v16] : List (Ref sig .tc)), Proc.devRef .tc b ∉ op.writes := by
  simp only [laterOps, hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals
    intro b hb
    simp only [List.mem_cons, List.mem_nil_iff, or_false] at hb
    rcases hb with rfl | rfl | rfl | rfl | rfl | rfl | rfl | rfl | rfl | rfl | rfl | rfl | rfl | rfl | rfl <;>
      exact StableHlo.devRef_ne_of_ne (by decide)

/-- The seven arrays the pipeline stages are among those. -/
theorem arrRef_mem (w : Fin 7) : Pipeline.arrRef spec0 w ∈
    ([main_arg0, main_arg1, main_arg2, main_arg3, main_arg4, main_arg5, main_arg6, main_arg7, main_arg8, main_arg9, main_arg10,
        main_v13, main_v14, main_v15, main_v16] : List (Ref sig .tc)) := by
  fin_cases w <;> simp [Pipeline.arrRef]

/-- So no later line writes an array of the pipeline. -/
theorem later_keeps : ∀ ops ∈ (laterOps : List (List (HloOp τ sig (Elt F)))), ∀ op ∈ ops,
    ∀ w, Proc.devRef .tc (Pipeline.arrRef spec0 w) ∉ op.writes := by
  intro ops hops op hop w
  exact (List.forall_iff_forall_mem.mp later_writes) op (List.mem_flatten.mpr ⟨ops, hops, hop⟩) _ (arrRef_mem w)

/-! ## The arguments are never written -/

set_option maxHeartbeats 4000000 in
/-- No host operation before the region writes an argument of @main: the region finds each as launched. -/
theorem V_arg (c : Dev nD) (b : Ref sig .tc)
    (hb : b ∈ ([main_arg0, main_arg1, main_arg2, main_arg3, main_arg4, main_arg5, main_arg6, main_arg7, main_arg8, main_arg9, main_arg10] : List (Ref sig .tc))) :
    V m c b = m ((c : Thread nD τ).loc b) := by
  refine StableHlo.after_of_forall_not_mem (b := Proc.devRef .tc b) _ _ (List.forall_iff_forall_mem.mp ?_)
  simp only [List.mem_cons, List.mem_nil_iff, or_false] at hb
  rcases hb with rfl | rfl | rfl | rfl | rfl | rfl | rfl | rfl | rfl | rfl | rfl
  all_goals
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- Nor does a later line: an argument no window stages ends as launched. -/
theorem W_arg (dats : (p : Fin _) → (c : Dev nD) → Dat τ (Elt F) Unit ℕ (UR sig nD τ) ℕ (cfgs p) c) (c : Dev nD) (b : Ref sig .tc)
    (hb : b ∈ ([main_arg0, main_arg1, main_arg3, main_arg5, main_arg7, main_arg8, main_arg9, main_arg10] : List (Ref sig .tc))) :
    Pipeline.afterTail₀ cfgs dats 0 (V0 m) laterOps c b = m ((c : Thread nD τ).loc b) := by
  have hb' : b ∈ ([main_arg0, main_arg1, main_arg2, main_arg3, main_arg4, main_arg5, main_arg6, main_arg7, main_arg8, main_arg9, main_arg10,
        main_v13, main_v14, main_v15, main_v16] : List (Ref sig .tc)) := by
    simp only [List.mem_cons, List.mem_nil_iff, or_false] at hb ⊢
    rcases hb with rfl | rfl | rfl | rfl | rfl | rfl | rfl | rfl <;> simp
  have hne : ∀ w, Pipeline.arrRef spec0 w ≠ b := by
    simp only [List.mem_cons, List.mem_nil_iff, or_false] at hb
    rcases hb with rfl | rfl | rfl | rfl | rfl | rfl | rfl | rfl <;> decide
  have harg : b ∈ ([main_arg0, main_arg1, main_arg2, main_arg3, main_arg4, main_arg5, main_arg6, main_arg7, main_arg8, main_arg9, main_arg10] : List (Ref sig .tc)) := by
    simp only [List.mem_cons, List.mem_nil_iff, or_false] at hb ⊢
    rcases hb with rfl | rfl | rfl | rfl | rfl | rfl | rfl | rfl <;> simp
  unfold Pipeline.afterTail₀
  rw [StableHlo.after_of_forall_not_mem (b := Proc.devRef .tc b) _ _
      (fun op hop => (List.forall_iff_forall_mem.mp later_writes) op hop b hb'),
    Pipeline.withArrays_of_ne _ c (V0 m c) _ b hne]
  exact V_arg m c b harg

end Cert.Kernel.Hand

end
-- ==== Proof.BodyK.lean ====
/-
  The kernel body's triple for the word-level program, at any float instance.

  One grid point of the pallas_call reads its seven staging buffers whole: the block of gathered neighbour
  features (1000 points x 8 neighbours x 128 channels), the three weight matrices and the two bias rows; it
  computes, per point, the two-layer perceptron on each neighbour, the maximum over the 8 neighbours and the
  projection by the third matrix, and overwrites the whole 1000 x 128 output buffer with the result. The body
  also loads the output buffer before the store; the loaded value is used nowhere.  So after the body the six
  input buffers hold what they held, and the output buffer holds the one stored payload, whatever it held
  before: the store's rectangle is the whole buffer.
-/
import proofs.«104351_j4758823764634_1_alg».proof.Proof.Gen.Kernel.Launch
import proofs.«104351_j4758823764634_1_alg».proof.Proof.Gen.Kernel.Skeleton
import proofs.«104351_j4758823764634_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

/-- The whole neighbour-feature block. -/
abbrev rFeat : Rect S1000x8x128 := Rect.unit (s := S1000x8x128) ![0, 0, 0] S1000x8x128.size inb_S1000x8x128_S1000x8x128_0_0_0
/-- A whole weight matrix. -/
abbrev rMat : Rect S128x128 := Rect.unit (s := S128x128) ![0, 0] S128x128.size inb_S128x128_S128x128_0_0
/-- A whole bias row. -/
abbrev rRow : Rect S1x128 := Rect.unit (s := S1x128) ![0, 0] S1x128.size inb_S1x128_S1x128_0_0
/-- The whole output block. -/
abbrev rOut : Rect S1000x128 := Rect.unit (s := S1000x128) ![0, 0] S1000x128.size inb_S1000x128_S1000x128_0_0

/-! ## What the body leaves in the output buffer -/

/-- The output buffer after the body, as a function of the six input buffers' contents: the one store's payload
    laid over the whole buffer. -/
def outBlock (xf : Vec F S1000x8x128 .f32) (w1 : Vec F S128x128 .f32) (b1 : Vec F S1x128 .f32)
    (w2 : Vec F S128x128 .f32) (b2 : Vec F S1x128 .f32) (wg : Vec F S128x128 .f32) : Vec F S1000x128 .f32 :=
  View.canon [⟨rOut, k0_pay1 (View.ld xf rFeat) (View.ld w1 rMat) (View.ld b1 rRow) (View.ld w2 rMat) (View.ld b2 rRow) (View.ld wg rMat)⟩]

/-- The one store covers the output buffer. -/
theorem outBlock_cover (p0 : Vec F S1000x128 .f32) (y : S1000x128.Idx) :
    ∃ pc ∈ ([⟨rOut, p0⟩] : List (View.Piece (Elt F) S1000x128 .f32)), y ∈ pc.1.set :=
  View.cover_of_tiled [⟨rOut, p0⟩] S1000x128.size (by rfl) y

/-! ## The body's triple -/

set_option maxHeartbeats 1000000 in
/-- On whole staging memrefs, the six inputs' at contents `xf … wg` and the output's at anything, the body runs to a
    state holding the inputs' as they were and the output's at `outBlock` of them. -/
theorem sound_kernel (c : Dev nD) (E : Set ℕ) (i : grid0.Coords)
    (arg1 : Memref sig .tc .vmem S1000x8x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1000x128 .f32) (harg7 : arg7.IsWhole)
    (xf : Vec F S1000x8x128 .f32) (w1 : Vec F S128x128 .f32) (b1 : Vec F S1x128 .f32)
    (w2 : Vec F S128x128 .f32) (b2 : Vec F S1x128 .f32) (wg : Vec F S128x128 .f32) (K : PUnit → sProp 𝕄) :
    iprop(owns (c : Thread nD τ) arg1 fullShare xf ∗ owns (c : Thread nD τ) arg2 fullShare w1 ∗ owns (c : Thread nD τ) arg3 fullShare b1
        ∗ owns (c : Thread nD τ) arg4 fullShare w2 ∗ owns (c : Thread nD τ) arg5 fullShare b2 ∗ owns (c : Thread nD τ) arg6 fullShare wg
        ∗ (∃ d, owns (c : Thread nD τ) arg7 fullShare d)
        ∗ (iprop(owns (c : Thread nD τ) arg1 fullShare xf ∗ owns (c : Thread nD τ) arg2 fullShare w1 ∗ owns (c : Thread nD τ) arg3 fullShare b1
            ∗ owns (c : Thread nD τ) arg4 fullShare w2 ∗ owns (c : Thread nD τ) arg5 fullShare b2 ∗ owns (c : Thread nD τ) arg6 fullShare wg
            ∗ owns (c : Thread nD τ) arg7 fullShare (outBlock xf w1 b1 w2 b2 wg)) -∗ K ⟨⟩))
      ⊢ wp frame (wpE (defs₀ (F := F)) Variants.none c none) E
          (cc0__pointnet_kernel i arg1 harg1 arg2 harg2 arg3 harg3 arg4 harg4 arg5 harg5 arg6 harg6 arg7 harg7) K := by
  simp only [cc0__pointnet_kernel_eq_skeleton]; unfold cc0__pointnet_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outBlock_cover _)

end Cert.Kernel.Hand

end
-- ==== Proof.FrameK.lean ====
/-
  The frame of the word-level kernel program, at any float instance: every weakly fair execution of @main
  terminates without a fault, and the eleven argument arrays end as launched.

  The pipeline stages seven windows over a grid of 50 points.  Window 0 is the block of 1000 points' neighbour
  features, a different block at every point; windows 1 to 5 are the three weight matrices and the two bias rows,
  the same whole array at every point (fetched once); window 6 is the output block of 1000 rows, written back at
  every point.  The proof data say: the arrays are as the host prefix left them; after the body each input buffer
  still holds its block and the output buffer holds the body's result on the input blocks.  With the body's triple
  this is the launch theorem's obligation at every point; the launch theorem for a region followed by host lines
  then gives the run, whose post has every staged array at the value the library computes from the proof data and
  every other unscoped buffer as the later lines leave it.  An argument that is a staged input (the three weight
  matrices) is read off the first clause, an argument no window stages off the second.
-/
import proofs.«104351_j4758823764634_1_alg».proof.Proof.HostK
import proofs.«104351_j4758823764634_1_alg».proof.Proof.BodyK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the pipeline fetched it there
    or its index has not moved since the last fetch — for any proof data whose array is the region-entry one and
    whose body leaves the block in place.  The six input windows, one statement each (the window is a literal in
    the library lemma's side conditions). -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the launch theorem's -/

/-- From a run to the launch theorem's post, for any proof data whose arrays are the region-entry contents: the
    eleven arguments end as launched.  The weight matrices (arguments 2, 4 and 6) are the arrays of windows 1, 3
    and 5: staged inputs, which end at their entry contents; the other eight are staged by no window and no line
    writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) laterOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
      ((h c).2 main_arg0 (Pipeline.mem_restRefs_of main_arg0 (by decide) (by decide))).trans (W_arg m dats c main_arg0 (by simp)),
      ((h c).2 main_arg1 (Pipeline.mem_restRefs_of main_arg1 (by decide) (by decide))).trans (W_arg m dats c main_arg1 (by simp)),
      ((h c).1 1).trans (((dats 0 c).arrAt_in 1 rfl _).trans ((hA c 1).trans (V_arg m c main_arg2 (by simp)))),
      ((h c).2 main_arg3 (Pipeline.mem_restRefs_of main_arg3 (by decide) (by decide))).trans (W_arg m dats c main_arg3 (by simp)),
      ((h c).1 3).trans (((dats 0 c).arrAt_in 3 rfl _).trans ((hA c 3).trans (V_arg m c main_arg4 (by simp)))),
      ((h c).2 main_arg5 (Pipeline.mem_restRefs_of main_arg5 (by decide) (by decide))).trans (W_arg m dats c main_arg5 (by simp)),
      ((h c).1 5).trans (((dats 0 c).arrAt_in 5 rfl _).trans ((hA c 5).trans (V_arg m c main_arg6 (by simp)))),
      ((h c).2 main_arg7 (Pipeline.mem_restRefs_of main_arg7 (by decide) (by decide))).trans (W_arg m dats c main_arg7 (by simp)),
      ((h c).2 main_arg8 (Pipeline.mem_restRefs_of main_arg8 (by decide) (by decide))).trans (W_arg m dats c main_arg8 (by simp)),
      ((h c).2 main_arg9 (Pipeline.mem_restRefs_of main_arg9 (by decide) (by decide))).trans (W_arg m dats c main_arg9 (by simp)),
      ((h c).2 main_arg10 (Pipeline.mem_restRefs_of main_arg10 (by decide) (by decide))).trans (W_arg m dats c main_arg10 (by simp))⟩) h

/-! ## The pipeline's proof data -/

/-- The proof data of the pipeline on core `c`: the arrays as the region finds them; after the body at point `t`
    each input buffer at its block and the output buffer at the body's result on the six input blocks; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents (the definition projected, the host prefix's fold never
    opened). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
/-- The output window's buffer after point `t`: the body's result on the six input blocks at `t`. -/
theorem after6 (c : Dev nD) (t : Fin cfg0.N) : (dats m 0 c).after 6 t
    = outBlock (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d

/-! ## The body obligation, at a generic point -/

/-- What the body is called with at point `t`: the invariant, the core's duties, and the seven current staging
    buffers, each at what the pipeline left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the input buffers hold their blocks, so the body's triple applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch theorem's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 4000000 in
set_option backward.isDefEq.respectTransparency.types false in
/-- From any memory with zero counters, every weakly fair execution of @main terminates, and every final state has
    each staged array at the value the library computes from the proof data and every other unscoped buffer as the
    later lines leave it. -/
theorem run_main : θ_run defs (onTc (τ := τ) (main (F := F))) (s₀ m ρ)
    (Pipeline.FramePost cfgs (dats m) 0 (Pipeline.afterTail₀ cfgs (dats m) 0 (V0 m) laterOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := laterOps) (hsub := later_sub) (hfresh := later_fresh) (hkeep := later_keeps)
    (hmain := hmain m Variants.none) (hA := A_eq m) (hΦ := fun _ _ => rfl)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Hand

end
-- ==== Proof.HostKI.lean ====
/-
  The host side of the idealized kernel program's frame, at any float instance.

  @main is: twenty host operations (the two gathers that build the neighbour-feature array, and the two bias
  reshapes), the one pallas_call, then sixty-eight host operations (the edge lists with self loops, the degree
  scatter-add, its inverse square root, the per-edge coefficients, the gather of projected features, the
  aggregation scatter-add plus bias, and the gather of sampled positions).  Here: the buffers' contents when the
  region is entered; that @main is the host prefix, the region, and the later lines as its continuation; and what
  the launch theorem asks of the later lines — they touch unscoped buffers only, allocate nothing, write none of
  the seven arrays the pipeline stages, and (for the frame claim) write none of @main's eleven arguments.
-/
import proofs.«104351_j4758823764634_1_alg».proof.Proof.Gen.KernelIdeal.Launch
import proofs.«104351_j4758823764634_1_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! ## The contents the region finds -/

/-- Core `c`'s buffer contents when the region is entered: the launch memory after the twenty host operations
    before the pallas_call. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The later lines, in @main's order: up to the inlined `where`, the `where`, and the rest. -/
abbrev laterOps : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-! ## @main around the region -/

set_option maxHeartbeats 4000000 in
/-- @main is the host prefix, then the region continued by the later lines. -/
theorem hmain (𝒱₀ : Variants) : Pipeline.HMainK (Ix := Unit) (Name := ℕ) (U := UR sig nD τ) (Lvl := ℕ) cfgs 0 defs₀ 𝒱₀ m (main (F := F)) (fun c b => V0 m c (Proc.devRef .tc b))
      (fun _ => Pipeline.chain ((laterOps (F := F)).map StableHlo.seq)) :=
  Pipeline.hmain_around cfgs 0 defs₀ 𝒱₀ m main [hostOps0] laterOps (by simp only [List.Forall]; exact hostOps0_sub)
    (by simp only [List.Forall]; exact hostOps0_fresh)
    (fun c => by rw [main_chain c]; simp only [laterOps, List.map_cons, List.map_nil, List.cons_append, List.nil_append])

/-! ## What the launch asks of the later lines -/

/-- Each later line's buffers are unscoped TensorCore references, so (nothing being prefetched) each is one of the
    pipeline's arrays or a buffer that bypasses the region. -/
theorem later_sub : ∀ ops ∈ (laterOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [laterOps, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem later_fresh : ∀ ops ∈ (laterOps : List (List (HloOp τ sig (Elt F)))), ∀ op ∈ ops, op.fresh = ∅ := by
  intro ops hops op hop
  simp only [laterOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

set_option maxHeartbeats 4000000 in
/-- No later line writes `b`, for `b` any buffer written before the region ends: each line writes only its own
    result buffer, and the results of the later lines are buffers 32 and up. Stated line by line over the
    flattened list, for the seven arrays and the eleven arguments at once. -/
theorem later_writes : (List.flatten (laterOps : List (List (HloOp τ sig (Elt F))))).Forall fun op =>
    ∀ b ∈ ([main_arg0, main_arg1, main_arg2, main_arg3, main_arg4, main_arg5, main_arg6, main_arg7, main_arg8, main_arg9, main_arg10,
        main_v13, main_v14, main_v15, main_v16] : List (Ref sig .tc)), Proc.devRef .tc b ∉ op.writes := by
  simp only [laterOps, hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals
    intro b hb
    simp only [List.mem_cons, List.mem_nil_iff, or_false] at hb
    rcases hb with rfl | rfl | rfl | rfl | rfl | rfl | rfl | rfl | rfl | rfl | rfl | rfl | rfl | rfl | rfl <;>
      exact StableHlo.devRef_ne_of_ne (by decide)

/-- The seven arrays the pipeline stages are among those. -/
theorem arrRef_mem (w : Fin 7) : Pipeline.arrRef spec0 w ∈
    ([main_arg0, main_arg1, main_arg2, main_arg3, main_arg4, main_arg5, main_arg6, main_arg7, main_arg8, main_arg9, main_arg10,
        main_v13, main_v14, main_v15, main_v16] : List (Ref sig .tc)) := by
  fin_cases w <;> simp [Pipeline.arrRef]

/-- So no later line writes an array of the pipeline. -/
theorem later_keeps : ∀ ops ∈ (laterOps : List (List (HloOp τ sig (Elt F)))), ∀ op ∈ ops,
    ∀ w, Proc.devRef .tc (Pipeline.arrRef spec0 w) ∉ op.writes := by
  intro ops hops op hop w
  exact (List.forall_iff_forall_mem.mp later_writes) op (List.mem_flatten.mpr ⟨ops, hops, hop⟩) _ (arrRef_mem w)

/-! ## The arguments are never written -/

set_option maxHeartbeats 4000000 in
/-- No host operation before the region writes an argument of @main: the region finds each as launched. -/
theorem V_arg (c : Dev nD) (b : Ref sig .tc)
    (hb : b ∈ ([main_arg0, main_arg1, main_arg2, main_arg3, main_arg4, main_arg5, main_arg6, main_arg7, main_arg8, main_arg9, main_arg10] : List (Ref sig .tc))) :
    V m c b = m ((c : Thread nD τ).loc b) := by
  refine StableHlo.after_of_forall_not_mem (b := Proc.devRef .tc b) _ _ (List.forall_iff_forall_mem.mp ?_)
  simp only [List.mem_cons, List.mem_nil_iff, or_false] at hb
  rcases hb with rfl | rfl | rfl | rfl | rfl | rfl | rfl | rfl | rfl | rfl | rfl
  all_goals
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- Nor does a later line: an argument no window stages ends as launched. -/
theorem W_arg (dats : (p : Fin _) → (c : Dev nD) → Dat τ (Elt F) Unit ℕ (UR sig nD τ) ℕ (cfgs p) c) (c : Dev nD) (b : Ref sig .tc)
    (hb : b ∈ ([main_arg0, main_arg1, main_arg3, main_arg5, main_arg7, main_arg8, main_arg9, main_arg10] : List (Ref sig .tc))) :
    Pipeline.afterTail₀ cfgs dats 0 (V0 m) laterOps c b = m ((c : Thread nD τ).loc b) := by
  have hb' : b ∈ ([main_arg0, main_arg1, main_arg2, main_arg3, main_arg4, main_arg5, main_arg6, main_arg7, main_arg8, main_arg9, main_arg10,
        main_v13, main_v14, main_v15, main_v16] : List (Ref sig .tc)) := by
    simp only [List.mem_cons, List.mem_nil_iff, or_false] at hb ⊢
    rcases hb with rfl | rfl | rfl | rfl | rfl | rfl | rfl | rfl <;> simp
  have hne : ∀ w, Pipeline.arrRef spec0 w ≠ b := by
    simp only [List.mem_cons, List.mem_nil_iff, or_false] at hb
    rcases hb with rfl | rfl | rfl | rfl | rfl | rfl | rfl | rfl <;> decide
  have harg : b ∈ ([main_arg0, main_arg1, main_arg2, main_arg3, main_arg4, main_arg5, main_arg6, main_arg7, main_arg8, main_arg9, main_arg10] : List (Ref sig .tc)) := by
    simp only [List.mem_cons, List.mem_nil_iff, or_false] at hb ⊢
    rcases hb with rfl | rfl | rfl | rfl | rfl | rfl | rfl | rfl <;> simp
  unfold Pipeline.afterTail₀
  rw [StableHlo.after_of_forall_not_mem (b := Proc.devRef .tc b) _ _
      (fun op hop => (List.forall_iff_forall_mem.mp later_writes) op hop b hb'),
    Pipeline.withArrays_of_ne _ c (V0 m c) _ b hne]
  exact V_arg m c b harg

end Cert.KernelIdeal.Hand

end
-- ==== Proof.BodyKI.lean ====
/-
  The kernel body's triple for the idealized program, at any float instance.

  One grid point of the pallas_call reads its seven staging buffers whole: the block of gathered neighbour
  features (1000 points x 8 neighbours x 128 channels), the three weight matrices and the two bias rows; it
  computes, per point, the two-layer perceptron on each neighbour, the maximum over the 8 neighbours and the
  projection by the third matrix, and overwrites the whole 1000 x 128 output buffer with the result. The body
  also loads the output buffer before the store; the loaded value is used nowhere.  So after the body the six
  input buffers hold what they held, and the output buffer holds the one stored payload, whatever it held
  before: the store's rectangle is the whole buffer.
-/
import proofs.«104351_j4758823764634_1_alg».proof.Proof.Gen.KernelIdeal.Launch
import proofs.«104351_j4758823764634_1_alg».proof.Proof.Gen.KernelIdeal.Skeleton
import proofs.«104351_j4758823764634_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

/-- The whole neighbour-feature block. -/
abbrev rFeat : Rect S1000x8x128 := Rect.unit (s := S1000x8x128) ![0, 0, 0] S1000x8x128.size inb_S1000x8x128_S1000x8x128_0_0_0
/-- A whole weight matrix. -/
abbrev rMat : Rect S128x128 := Rect.unit (s := S128x128) ![0, 0] S128x128.size inb_S128x128_S128x128_0_0
/-- A whole bias row. -/
abbrev rRow : Rect S1x128 := Rect.unit (s := S1x128) ![0, 0] S1x128.size inb_S1x128_S1x128_0_0
/-- The whole output block. -/
abbrev rOut : Rect S1000x128 := Rect.unit (s := S1000x128) ![0, 0] S1000x128.size inb_S1000x128_S1000x128_0_0

/-! ## What the body leaves in the output buffer -/

/-- The output buffer after the body, as a function of the six input buffers' contents: the one store's payload
    laid over the whole buffer. -/
def outBlock (xf : Vec F S1000x8x128 .f32) (w1 : Vec F S128x128 .f32) (b1 : Vec F S1x128 .f32)
    (w2 : Vec F S128x128 .f32) (b2 : Vec F S1x128 .f32) (wg : Vec F S128x128 .f32) : Vec F S1000x128 .f32 :=
  View.canon [⟨rOut, k0_pay1 (View.ld xf rFeat) (View.ld w1 rMat) (View.ld b1 rRow) (View.ld w2 rMat) (View.ld b2 rRow) (View.ld wg rMat)⟩]

/-- The one store covers the output buffer. -/
theorem outBlock_cover (p0 : Vec F S1000x128 .f32) (y : S1000x128.Idx) :
    ∃ pc ∈ ([⟨rOut, p0⟩] : List (View.Piece (Elt F) S1000x128 .f32)), y ∈ pc.1.set :=
  View.cover_of_tiled [⟨rOut, p0⟩] S1000x128.size (by rfl) y

/-! ## The body's triple -/

set_option maxHeartbeats 1000000 in
/-- On whole staging memrefs, the six inputs' at contents `xf … wg` and the output's at anything, the body runs to a
    state holding the inputs' as they were and the output's at `outBlock` of them. -/
theorem sound_kernel (c : Dev nD) (E : Set ℕ) (i : grid0.Coords)
    (arg1 : Memref sig .tc .vmem S1000x8x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1000x128 .f32) (harg7 : arg7.IsWhole)
    (xf : Vec F S1000x8x128 .f32) (w1 : Vec F S128x128 .f32) (b1 : Vec F S1x128 .f32)
    (w2 : Vec F S128x128 .f32) (b2 : Vec F S1x128 .f32) (wg : Vec F S128x128 .f32) (K : PUnit → sProp 𝕄) :
    iprop(owns (c : Thread nD τ) arg1 fullShare xf ∗ owns (c : Thread nD τ) arg2 fullShare w1 ∗ owns (c : Thread nD τ) arg3 fullShare b1
        ∗ owns (c : Thread nD τ) arg4 fullShare w2 ∗ owns (c : Thread nD τ) arg5 fullShare b2 ∗ owns (c : Thread nD τ) arg6 fullShare wg
        ∗ (∃ d, owns (c : Thread nD τ) arg7 fullShare d)
        ∗ (iprop(owns (c : Thread nD τ) arg1 fullShare xf ∗ owns (c : Thread nD τ) arg2 fullShare w1 ∗ owns (c : Thread nD τ) arg3 fullShare b1
            ∗ owns (c : Thread nD τ) arg4 fullShare w2 ∗ owns (c : Thread nD τ) arg5 fullShare b2 ∗ owns (c : Thread nD τ) arg6 fullShare wg
            ∗ owns (c : Thread nD τ) arg7 fullShare (outBlock xf w1 b1 w2 b2 wg)) -∗ K ⟨⟩))
      ⊢ wp frame (wpE (defs₀ (F := F)) Variants.none c none) E
          (cc0__pointnet_kernel i arg1 harg1 arg2 harg2 arg3 harg3 arg4 harg4 arg5 harg5 arg6 harg6 arg7 harg7) K := by
  simp only [cc0__pointnet_kernel_eq_skeleton]; unfold cc0__pointnet_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outBlock_cover _)

end Cert.KernelIdeal.Hand

end
-- ==== Proof.FrameKI.lean ====
/-
  The frame of the idealized kernel program, at any float instance: every weakly fair execution of @main
  terminates without a fault, and the eleven argument arrays end as launched.

  The pipeline stages seven windows over a grid of 50 points.  Window 0 is the block of 1000 points' neighbour
  features, a different block at every point; windows 1 to 5 are the three weight matrices and the two bias rows,
  the same whole array at every point (fetched once); window 6 is the output block of 1000 rows, written back at
  every point.  The proof data say: the arrays are as the host prefix left them; after the body each input buffer
  still holds its block and the output buffer holds the body's result on the input blocks.  With the body's triple
  this is the launch theorem's obligation at every point; the launch theorem for a region followed by host lines
  then gives the run, whose post has every staged array at the value the library computes from the proof data and
  every other unscoped buffer as the later lines leave it.  An argument that is a staged input (the three weight
  matrices) is read off the first clause, an argument no window stages off the second.
-/
import proofs.«104351_j4758823764634_1_alg».proof.Proof.HostKI
import proofs.«104351_j4758823764634_1_alg».proof.Proof.BodyKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the pipeline fetched it there
    or its index has not moved since the last fetch — for any proof data whose array is the region-entry one and
    whose body leaves the block in place.  The six input windows, one statement each (the window is a literal in
    the library lemma's side conditions). -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the launch theorem's -/

/-- From a run to the launch theorem's post, for any proof data whose arrays are the region-entry contents: the
    eleven arguments end as launched.  The weight matrices (arguments 2, 4 and 6) are the arrays of windows 1, 3
    and 5: staged inputs, which end at their entry contents; the other eight are staged by no window and no line
    writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) laterOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
      ((h c).2 main_arg0 (Pipeline.mem_restRefs_of main_arg0 (by decide) (by decide))).trans (W_arg m dats c main_arg0 (by simp)),
      ((h c).2 main_arg1 (Pipeline.mem_restRefs_of main_arg1 (by decide) (by decide))).trans (W_arg m dats c main_arg1 (by simp)),
      ((h c).1 1).trans (((dats 0 c).arrAt_in 1 rfl _).trans ((hA c 1).trans (V_arg m c main_arg2 (by simp)))),
      ((h c).2 main_arg3 (Pipeline.mem_restRefs_of main_arg3 (by decide) (by decide))).trans (W_arg m dats c main_arg3 (by simp)),
      ((h c).1 3).trans (((dats 0 c).arrAt_in 3 rfl _).trans ((hA c 3).trans (V_arg m c main_arg4 (by simp)))),
      ((h c).2 main_arg5 (Pipeline.mem_restRefs_of main_arg5 (by decide) (by decide))).trans (W_arg m dats c main_arg5 (by simp)),
      ((h c).1 5).trans (((dats 0 c).arrAt_in 5 rfl _).trans ((hA c 5).trans (V_arg m c main_arg6 (by simp)))),
      ((h c).2 main_arg7 (Pipeline.mem_restRefs_of main_arg7 (by decide) (by decide))).trans (W_arg m dats c main_arg7 (by simp)),
      ((h c).2 main_arg8 (Pipeline.mem_restRefs_of main_arg8 (by decide) (by decide))).trans (W_arg m dats c main_arg8 (by simp)),
      ((h c).2 main_arg9 (Pipeline.mem_restRefs_of main_arg9 (by decide) (by decide))).trans (W_arg m dats c main_arg9 (by simp)),
      ((h c).2 main_arg10 (Pipeline.mem_restRefs_of main_arg10 (by decide) (by decide))).trans (W_arg m dats c main_arg10 (by simp))⟩) h

/-! ## The pipeline's proof data -/

/-- The proof data of the pipeline on core `c`: the arrays as the region finds them; after the body at point `t`
    each input buffer at its block and the output buffer at the body's result on the six input blocks; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents (the definition projected, the host prefix's fold never
    opened). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
/-- The output window's buffer after point `t`: the body's result on the six input blocks at `t`. -/
theorem after6 (c : Dev nD) (t : Fin cfg0.N) : (dats m 0 c).after 6 t
    = outBlock (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d

/-! ## The body obligation, at a generic point -/

/-- What the body is called with at point `t`: the invariant, the core's duties, and the seven current staging
    buffers, each at what the pipeline left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the input buffers hold their blocks, so the body's triple applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch theorem's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 4000000 in
set_option backward.isDefEq.respectTransparency.types false in
/-- From any memory with zero counters, every weakly fair execution of @main terminates, and every final state has
    each staged array at the value the library computes from the proof data and every other unscoped buffer as the
    later lines leave it. -/
theorem run_main : θ_run defs (onTc (τ := τ) (main (F := F))) (s₀ m ρ)
    (Pipeline.FramePost cfgs (dats m) 0 (Pipeline.afterTail₀ cfgs (dats m) 0 (V0 m) laterOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := laterOps) (hsub := later_sub) (hfresh := later_fresh) (hkeep := later_keeps)
    (hmain := hmain m Variants.none) (hA := A_eq m) (hΦ := fun _ _ => rfl)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Hand

end
-- ==== Proof.ArgsKI.lean ====
/-
  The launch theorem's post of the idealized kernel program, read at @main's eleven arguments: each ends as launched.
  The weight matrices (arguments 2, 4 and 6) are the arrays of windows 1, 3 and 5, staged inputs that end at their
  entry contents; the other eight are staged by no window and no line writes them.  (The frame claim uses the same
  reading; here it is a statement about one final state, so that a value claim can take it beside the results.)
-/
import proofs.«104351_j4758823764634_1_alg».proof.Proof.FrameKI

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem post_args (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) laterOps) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (W_arg m dats c main_arg0 (by simp)),
    ((h c).2 main_arg1 (Pipeline.mem_restRefs_of main_arg1 (by decide) (by decide))).trans (W_arg m dats c main_arg1 (by simp)),
    ((h c).1 1).trans (((dats 0 c).arrAt_in 1 rfl _).trans ((hA c 1).trans (V_arg m c main_arg2 (by simp)))),
    ((h c).2 main_arg3 (Pipeline.mem_restRefs_of main_arg3 (by decide) (by decide))).trans (W_arg m dats c main_arg3 (by simp)),
    ((h c).1 3).trans (((dats 0 c).arrAt_in 3 rfl _).trans ((hA c 3).trans (V_arg m c main_arg4 (by simp)))),
    ((h c).2 main_arg5 (Pipeline.mem_restRefs_of main_arg5 (by decide) (by decide))).trans (W_arg m dats c main_arg5 (by simp)),
    ((h c).1 5).trans (((dats 0 c).arrAt_in 5 rfl _).trans ((hA c 5).trans (V_arg m c main_arg6 (by simp)))),
    ((h c).2 main_arg7 (Pipeline.mem_restRefs_of main_arg7 (by decide) (by decide))).trans (W_arg m dats c main_arg7 (by simp)),
    ((h c).2 main_arg8 (Pipeline.mem_restRefs_of main_arg8 (by decide) (by decide))).trans (W_arg m dats c main_arg8 (by simp)),
    ((h c).2 main_arg9 (Pipeline.mem_restRefs_of main_arg9 (by decide) (by decide))).trans (W_arg m dats c main_arg9 (by simp)),
    ((h c).2 main_arg10 (Pipeline.mem_restRefs_of main_arg10 (by decide) (by decide))).trans (W_arg m dats c main_arg10 (by simp))⟩

end Cert.KernelIdeal.Hand

end
-- ==== Proof.BlocksKI.lean ====
/-
  The windows' blocks of the idealized kernel program, read as parts of their arrays; and that the output window's
  blocks tile its array.

  At grid point `t` (of 50) the pipeline hands the body rows 1000·t … 1000·t + 999 of the gathered neighbour-feature
  array (all 8 neighbours, all 128 channels), the three weight matrices and two bias rows whole, and takes back rows
  1000·t … 1000·t + 999 of the projected-feature array.  Fifty blocks of 1000 rows fill the 50000 rows.
-/
import proofs.«104351_j4758823764634_1_alg».proof.Proof.FrameKI
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps over the grid: the feature window and the output window are at block `t` of their
    leading axis, every other block index is zero. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The feature block at point `t`, entry (p, k, ch), is entry (1000·t + p, k, ch) of the gathered array. -/
theorem feat_apply (c : Dev nD) (t : Fin cfg0.N) (p : Fin 1000) (k : Fin 8) (ch : Fin 128) (r : Fin 50000)
    (hr : r.val = 1000 * t.val + p.val) :
    (iblk m c 0 t : Vec F S1000x8x128 .f32) (ix3 p k ch) = (V m c main_v13 : S50000x8x128.Idx → Elt F .f32) (ix3 r k ch) := by
  obtain ⟨e0, e1, e2, -⟩ := index_facts t
  unfold iblk
  rw [View.read_apply]
  show V m c main_v13 _ = V m c main_v13 _
  refine congrArg (V m c main_v13) (funext fun a => Fin.ext ?_)
  match a with
  | ⟨0, _⟩ => show win0_0.index t (0 : Fin 3) * 1000 + 1 * p.val = r.val; rw [e0, hr]; omega
  | ⟨1, _⟩ => show win0_0.index t (1 : Fin 3) * 8 + 1 * k.val = k.val; rw [e1]; omega
  | ⟨2, _⟩ => show win0_0.index t (2 : Fin 3) * 128 + 1 * ch.val = ch.val; rw [e2]; omega

/-- A window whose block is its whole array hands the body the array, at every point.  The five of them: -/
theorem w1_eq (c : Dev nD) (t : Fin cfg0.N) : (iblk m c 1 t : Vec F S128x128 .f32) = V m c main_arg2 := by
  obtain ⟨-, -, -, e0, e1, -⟩ := index_facts t
  unfold iblk
  funext y
  rw [View.read_apply]
  show V m c main_arg2 _ = V m c main_arg2 y
  refine congrArg (V m c main_arg2) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega
theorem w2_eq (c : Dev nD) (t : Fin cfg0.N) : (iblk m c 2 t : Vec F S1x128 .f32) = V m c main_v14 := by
  obtain ⟨-, -, -, -, -, e0, e1, -⟩ := index_facts t
  unfold iblk
  funext y
  rw [View.read_apply]
  show V m c main_v14 _ = V m c main_v14 y
  refine congrArg (V m c main_v14) (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega
theorem w3_eq (c : Dev nD) (t : Fin cfg0.N) : (iblk m c 3 t : Vec F S128x128 .f32) = V m c main_arg4 := by
  obtain ⟨-, -, -, -, -, -, -, e0, e1, -⟩ := index_facts t
  unfold iblk
  funext y
  rw [View.read_apply]
  show V m c main_arg4 _ = V m c main_arg4 y
  refine congrArg (V m c main_arg4) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega
theorem w4_eq (c : Dev nD) (t : Fin cfg0.N) : (iblk m c 4 t : Vec F S1x128 .f32) = V m c main_v15 := by
  obtain ⟨-, -, -, -, -, -, -, -, -, e0, e1, -⟩ := index_facts t
  unfold iblk
  funext y
  rw [View.read_apply]
  show V m c main_v15 _ = V m c main_v15 y
  refine congrArg (V m c main_v15) (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega
theorem w5_eq (c : Dev nD) (t : Fin cfg0.N) : (iblk m c 5 t : Vec F S128x128 .f32) = V m c main_arg6 := by
  obtain ⟨-, -, -, -, -, -, -, -, -, -, -, e0, e1, -⟩ := index_facts t
  unfold iblk
  funext y
  rw [View.read_apply]
  show V m c main_arg6 _ = V m c main_arg6 y
  refine congrArg (V m c main_arg6) (funext fun a => Fin.ext ?_)
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- An index of the projected-feature array is in point `t`'s output block iff its row is among rows
    1000·t … 1000·t + 999. -/
theorem mem_out_blk (t : Fin cfg0.N) (i : S50000x128.Idx) :
    i ∈ ((cfg0.win 6).blk t).view.set ↔ ∀ a : Fin 2, win0_6.index t a * S1000x128.size a ≤ (i a).val ∧ (i a).val < win0_6.index t a * S1000x128.size a + S1000x128.size a := by
  show i ∈ ((View.whole main_v16).slice (win0_6.rect t)).set ↔ _
  rw [View.set_slice_whole, Rect.mem_set_unit]
  exact Iff.rfl

/-- Every row is in the block of the point `row / 1000`, and the pipeline writes that block back. -/
theorem out_cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 50 := N_0
  refine ⟨⟨(i 0).val / 1000, by rw [hN]; omega⟩, flush0_6 _, ?_⟩
  rw [mem_out_blk]
  obtain ⟨-, -, -, -, -, -, -, -, -, -, -, -, -, e0, e1⟩ := index_facts ⟨(i 0).val / 1000, by rw [hN]; omega⟩
  intro a
  match a with
  | ⟨0, _⟩ =>
    show win0_6.index _ (0 : Fin 2) * 1000 ≤ (i 0).val ∧ (i 0).val < win0_6.index _ (0 : Fin 2) * 1000 + 1000
    rw [e0]; show (i 0).val / 1000 * 1000 ≤ (i 0).val ∧ (i 0).val < (i 0).val / 1000 * 1000 + 1000; omega
  | ⟨1, _⟩ =>
    show win0_6.index _ (1 : Fin 2) * 128 ≤ (i 1).val ∧ (i 1).val < win0_6.index _ (1 : Fin 2) * 128 + 128
    rw [e1]; omega

end Cert.KernelIdeal.Hand

end
-- ==== Proof.PrefixKI.lean ====
/-
  What the region of the idealized kernel program finds in its staged arrays, as functions of @main's arguments.

  The neighbour-feature array is the double gather x[sampled_idx][group_idx] (negative indices wrapped first, as
  jnp indexing prints them): the same two gathers, of the same operands, as the reference's, so it is the
  reference's own stage function of the three arguments it reads.  The two bias rows are the bias vectors reshaped
  to one row; the three weight matrices are arguments, unchanged.
-/
import proofs.«104351_j4758823764634_1_alg».proof.Proof.FrameKI
import proofs.«104351_j4758823764634_1_alg».proof.Proof.RefReadP
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ)

set_option maxHeartbeats 4000000 in
/-- The gathered neighbour features, as the reference's stage function of the features, the sampled indices and the
    neighbour indices. -/
theorem V_feat (c : Dev nD) : (V m c main_v13 : S50000x8x128.Idx → Elt F .f32)
    = Cert.ReferenceIdeal.ReadP.val_main_v13 (F := F) (m ((c : Thread nD τ).loc main_arg0)) (m ((c : Thread nD τ).loc main_arg8)) (m ((c : Thread nD τ).loc main_arg9)) := by
  show StableHlo.after hostOps0 (fun b => m (c, b)) (Proc.devRef .tc main_v13) = _
  after_results
  rfl

set_option maxHeartbeats 4000000 in
/-- The first bias row: the bias vector as one row. -/
theorem V_b1 (c : Dev nD) : (V m c main_v14 : S1x128.Idx → Elt F .f32)
    = shapeCast S1x128 (m ((c : Thread nD τ).loc main_arg3)) shapeCasts_S128_S1x128 := by
  show StableHlo.after hostOps0 (fun b => m (c, b)) (Proc.devRef .tc main_v14) = _
  after_results
  rfl

set_option maxHeartbeats 4000000 in
/-- The second bias row. -/
theorem V_b2 (c : Dev nD) : (V m c main_v15 : S1x128.Idx → Elt F .f32)
    = shapeCast S1x128 (m ((c : Thread nD τ).loc main_arg5)) shapeCasts_S128_S1x128 := by
  show StableHlo.after hostOps0 (fun b => m (c, b)) (Proc.devRef .tc main_v15) = _
  after_results
  rfl

/-- A vector as one row, read at (0, d), is the vector at d. -/
theorem row_apply (x : S128.Idx → Elt F .f32) (d : Fin 128) :
    (shapeCast S1x128 x shapeCasts_S128_S1x128 : S1x128.Idx → Elt F .f32) (ix2 0 d) = x (ix1 d) := by
  refine shapeCast_apply x shapeCasts_S128_S1x128 (ix2 0 d) (ix1 d) ?_
  simp [Shape.rowMajor_val_two, Shape.rowMajor_val_one]

end Cert.KernelIdeal.Hand

end
-- ==== Proof.Spec.lean ====
/-
  The point network, as a function on extended reals.

  For one sampled point with its eight neighbours' 128-channel feature rows `G k`, both programs compute
    hidden  d = max (Σ_c G k c · W1[c,d] + b1[d]) 0                 (first linear layer, then the rectifier)
    second  e = Σ_d hidden d · W2[d,e] + b2[e]                      (second linear layer)
    pooled  e = the maximum over the eight neighbours k of second e, starting from −∞
    project j = Σ_e pooled e · Wg[e,j]                              (the graph convolution's weight)
  The kernel does this for 1000 points at a time on the matrix unit after rounding operands to bf16, which at the
  ideal instance is the identity; the reference does it for all 50000 points by two einsums, a maximum over an axis
  and a matrix product.  The literals 0 and −∞ are kept as the words both programs print.
-/
import Idealize.ShloMosaic.PureOps.Ideal
import Idealize.ShloMosaic.Lib.ValueIdx

noncomputable section

namespace Cert.Spec

open Idealize.ShloMosaic Idealize.ShloMosaic.ValueIdx

/-- A 128 × 128 weight matrix's index set. -/
abbrev Mat : Type := (⟨2, ![128, 128]⟩ : Shape).Idx

/-- One neighbour's row through the first linear layer and the rectifier, at output channel `d`. -/
def hidden (g : Fin 128 → EReal) (W1 : Mat → EReal) (b1 : Fin 128 → EReal) (d : Fin 128) : EReal :=
  max ((∑ c : Fin 128, g c * W1 (ix2 c d)) + b1 d) (Ideal.ofBits .f32 0x00000000#32)

/-- Then through the second linear layer, at output channel `e`. -/
def second (g : Fin 128 → EReal) (W1 : Mat → EReal) (b1 : Fin 128 → EReal) (W2 : Mat → EReal) (b2 : Fin 128 → EReal)
    (e : Fin 128) : EReal :=
  (∑ d : Fin 128, hidden g W1 b1 d * W2 (ix2 d e)) + b2 e

/-- The maximum over the eight neighbours, from −∞. -/
def pooled (G : Fin 8 → Fin 128 → EReal) (W1 : Mat → EReal) (b1 : Fin 128 → EReal) (W2 : Mat → EReal) (b2 : Fin 128 → EReal)
    (e : Fin 128) : EReal :=
  (Finset.univ : Finset (Fin 8)).fold max (Ideal.ofBits .f32 0xFF800000#32) (fun k => second (G k) W1 b1 W2 b2 e)

/-- The point's feature projected by the convolution's weight, at output channel `j`. -/
def project (G : Fin 8 → Fin 128 → EReal) (W1 : Mat → EReal) (b1 : Fin 128 → EReal) (W2 : Mat → EReal) (b2 : Fin 128 → EReal)
    (Wg : Mat → EReal) (j : Fin 128) : EReal :=
  ∑ e : Fin 128, pooled G W1 b1 W2 b2 e * Wg (ix2 e j)

end Cert.Spec

end
-- ==== Proof.PayKI.lean ====
/-
  The kernel body's one stored value, read at an index.

  The body takes a [1000,8,128] block of neighbour rows, views it as 8000 rows of 128 channels (neighbour k of point p
  is row 8 p + k), applies the first linear layer with its bias row and the rectifier, the second linear layer with its
  bias row, views the rows as [1000,8,128] again, takes the maximum over the eight neighbours from −∞, and multiplies the
  pooled rows by the convolution's weight.  The roundings to bf16 before each product are the identity on extended
  reals.  Read at (p, j), each product into the zero accumulator is a sum over the contracted channel, each bias row is
  read at (0, ·), and the maximum is a fold over the eight neighbours: the specification's `project` for point p.
-/
import proofs.«104351_j4758823764634_1_alg».proof.Proof.Gen.KernelIdeal.Skeleton
import proofs.«104351_j4758823764634_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.KernelIdeal.Pay

open Cert.KernelIdeal Cert.KernelIdeal.Gen Idealize.ShloMosaic Idealize.ShloMosaic.ValueIdx

/-! ## The matrix products read at an index -/

theorem lhs_flat_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem lhs_flat_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
theorem rhs_flat_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
theorem rhs_flat_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- A product of the flattened [8000,128] rows with a [128,128] weight, into zero: the sum over the channel. -/
theorem matmul_flat_apply {φ₁ φ₂ : FTy} (x : FVec Ideal S8000x128 φ₁) (w : FVec Ideal S128x128 φ₂) (r : Fin 8000) (d : Fin 128) :
    matmul dot_S8000x128_S128x128_S8000x128_1_0_0_1_n_n none x w (constant (F := Ideal) S8000x128 .f32 0x00000000#32) (ix2 r d)
      = ∑ c : Fin 128, x (ix2 r c) * w (ix2 c d) := by
  refine (Ideal.matmul_constant_zero_apply dot_S8000x128_S128x128_S8000x128_1_0_0_1_n_n none x w (ix2 r d)).trans ?_
  rw [← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 r d) ((contrEquiv1 dot_S8000x128_S128x128_S8000x128_1_0_0_1_n_n 128 rfl rfl).symm k) = ix2 r k := funext fun a => Fin.ext (by
    match a with
    | ⟨0, _⟩ => exact lhs_flat_0 _ _
    | ⟨1, _⟩ => exact (lhs_flat_1 _ _).trans hk)
  have er : dot_S8000x128_S128x128_S8000x128_1_0_0_1_n_n.rhsIdx (ix2 r d) ((contrEquiv1 dot_S8000x128_S128x128_S8000x128_1_0_0_1_n_n 128 rfl rfl).symm k) = ix2 k d := funext fun a => Fin.ext (by
    match a with
    | ⟨0, _⟩ => exact (rhs_flat_0 _ _).trans hk
    | ⟨1, _⟩ => exact rhs_flat_1 _ _)
  rw [el, er]

theorem lhs_pts_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem lhs_pts_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
theorem rhs_pts_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
theorem rhs_pts_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- A product of the [1000,128] pooled rows with a [128,128] weight, into zero: the sum over the channel. -/
theorem matmul_pts_apply {φ₁ φ₂ : FTy} (x : FVec Ideal S1000x128 φ₁) (w : FVec Ideal S128x128 φ₂) (p : Fin 1000) (d : Fin 128) :
    matmul dot_S1000x128_S128x128_S1000x128_1_0_0_1_n_n none x w (constant (F := Ideal) S1000x128 .f32 0x00000000#32) (ix2 p d)
      = ∑ c : Fin 128, x (ix2 p c) * w (ix2 c d) := by
  refine (Ideal.matmul_constant_zero_apply dot_S1000x128_S128x128_S1000x128_1_0_0_1_n_n none x w (ix2 p d)).trans ?_
  rw [← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 p d) ((contrEquiv1 dot_S1000x128_S128x128_S1000x128_1_0_0_1_n_n 128 rfl rfl).symm k) = ix2 p k := funext fun a => Fin.ext (by
    match a with
    | ⟨0, _⟩ => exact lhs_pts_0 _ _
    | ⟨1, _⟩ => exact (lhs_pts_1 _ _).trans hk)
  have er : dot_S1000x128_S128x128_S1000x128_1_0_0_1_n_n.rhsIdx (ix2 p d) ((contrEquiv1 dot_S1000x128_S128x128_S1000x128_1_0_0_1_n_n 128 rfl rfl).symm k) = ix2 k d := funext fun a => Fin.ext (by
    match a with
    | ⟨0, _⟩ => exact (rhs_pts_0 _ _).trans hk
    | ⟨1, _⟩ => exact rhs_pts_1 _ _)
  rw [el, er]

/-! ## The two views of the rows: point `p`'s neighbour `k` is row `8 p + k` -/

/-- Row `8 p + k` of the flattened [8000,128] view. -/
def row (p : Fin 1000) (k : Fin 8) : Fin 8000 := ⟨p.val * 8 + k.val, by omega⟩

/-- The [1000,8,128] block viewed as [8000,128] reads, at row `8 p + k`, the block at `(p, k, ·)`. -/
theorem flatten_apply {α : Type} (x : S1000x8x128.Idx → α) (h : S1000x8x128.ShapeCasts S8000x128)
    (p : Fin 1000) (k : Fin 8) (c : Fin 128) :
    shapeCast S8000x128 x h (ix2 (row p k) c) = x (ix3 p k c) :=
  shapeCast_apply x h _ _ (by
    rw [Shape.rowMajor_val_three, Shape.rowMajor_val_two]
    rfl)

/-- The [8000,128] rows viewed as [1000,8,128] read, at `(p, k, ·)`, row `8 p + k`. -/
theorem unflatten_apply {α : Type} (y : S8000x128.Idx → α) (h : S8000x128.ShapeCasts S1000x8x128)
    (p : Fin 1000) (k : Fin 8) (e : Fin 128) :
    shapeCast S1000x8x128 y h (ix3 p k e) = y (ix2 (row p k) e) :=
  shapeCast_apply y h _ _ (by
    rw [Shape.rowMajor_val_three, Shape.rowMajor_val_two]
    rfl)

/-! ## The maximum over the eight neighbours -/

/-- The reduced index `(p, e)` with neighbour `k` put back is `(p, k, e)`. -/
theorem lift_pool (h : S1000x8x128.Reduces [1] S1000x128) (p : Fin 1000) (e : Fin 128) (k : Fin (S1000x8x128.size 1)) :
    h.lift (ix2 p e) k = ix3 p (⟨k.val, k.isLt⟩ : Fin 8) e := by
  funext c; apply Fin.ext
  match c with
  | ⟨0, _⟩ => rfl
  | ⟨1, _⟩ => rfl
  | ⟨2, _⟩ => rfl

/-- From −∞ the maximum over axis 1 of a [1000,8,128] block, at `(p, e)`, is the fold of `max` over the eight neighbours. -/
theorem pool_apply (src : FVec Ideal S1000x8x128 .f32) (h : S1000x8x128.Reduces [1] S1000x128) (hφ : FKind.Formats .f32)
    (hacc : (0xFF800000#32 : BitVec 32) = FKind.maximumf.neutral .f32 hφ) (p : Fin 1000) (e : Fin 128) :
    multiReduction (F := Ideal) .maximumf [1] S1000x128 src 0xFF800000#32 h hφ hacc (ix2 p e)
      = (Finset.univ : Finset (Fin 8)).fold max (Ideal.ofBits .f32 0xFF800000#32) (fun k => src (ix3 p k e)) := by
  refine (Ideal.multiReduction_maximumf_single src 0xFF800000#32 h hφ hacc (ix2 p e)).trans ?_
  have hf : (src ∘ h.lift (ix2 p e)) = fun k : Fin 8 => src (ix3 p k e) := funext fun k => congrArg src (lift_pool h p e k)
  exact congrArg (fun f => Finset.fold max (Ideal.ofBits .f32 0xFF800000#32) f (Finset.univ : Finset (Fin 8))) hf

/-! ## The kernel's stored value, layer by layer -/

/-- The first layer on the flattened rows: product with `W1`, plus the bias row, then the rectifier. -/
def act1 (v0 : FVec Ideal S1000x8x128 .f32) (v4 : FVec Ideal S128x128 .f32) (v7 : FVec Ideal S1x128 .f32) : FVec Ideal S8000x128 .f32 :=
  maximumf
    (addf
      (matmul dot_S8000x128_S128x128_S8000x128_1_0_0_1_n_n none
        (truncf .bf16 (shapeCast S8000x128 (shapeCast S1000x8x128 v0 shapeCasts_S1000x8x128_S1000x8x128) shapeCasts_S1000x8x128_S8000x128) bitsLt_bf16_f32)
        (truncf .bf16 v4 bitsLt_bf16_f32) (constant (F := Ideal) S8000x128 .f32 0x00000000#32))
      (broadcastTo S8000x128 (shapeCast S1x128 v7 shapeCasts_S1x128_S1x128) broadcasts_S1x128_S8000x128))
    (broadcast S8000x128 (Scalar.ofBits (F := Ideal) .f32 0x00000000#32))

/-- The second layer on the flattened rows: product with `W2`, plus the bias row. -/
def act2 (v0 : FVec Ideal S1000x8x128 .f32) (v4 : FVec Ideal S128x128 .f32) (v7 : FVec Ideal S1x128 .f32)
    (v14 : FVec Ideal S128x128 .f32) (v17 : FVec Ideal S1x128 .f32) : FVec Ideal S8000x128 .f32 :=
  addf
    (matmul dot_S8000x128_S128x128_S8000x128_1_0_0_1_n_n none
      (truncf .bf16 (act1 v0 v4 v7) bitsLt_bf16_f32) (truncf .bf16 v14 bitsLt_bf16_f32) (constant (F := Ideal) S8000x128 .f32 0x00000000#32))
    (broadcastTo S8000x128 (shapeCast S1x128 v17 shapeCasts_S1x128_S1x128) broadcasts_S1x128_S8000x128)

/-- The maximum over each point's eight neighbours, from −∞. -/
def pool (v0 : FVec Ideal S1000x8x128 .f32) (v4 : FVec Ideal S128x128 .f32) (v7 : FVec Ideal S1x128 .f32)
    (v14 : FVec Ideal S128x128 .f32) (v17 : FVec Ideal S1x128 .f32) : FVec Ideal S1000x128 .f32 :=
  multiReduction (F := Ideal) .maximumf [1] S1000x128
    (shapeCast S1000x8x128 (act2 v0 v4 v7 v14 v17) shapeCasts_S8000x128_S1000x8x128) 0xFF800000#32
    reduces_S1000x8x128_S1000x128 (.inl rfl) rfl

/-- The stored value is the pooled rows' product with `Wg`. -/
theorem pay_eq (v0 : FVec Ideal S1000x8x128 .f32) (v4 : FVec Ideal S128x128 .f32) (v7 : FVec Ideal S1x128 .f32)
    (v14 : FVec Ideal S128x128 .f32) (v17 : FVec Ideal S1x128 .f32) (v24 : FVec Ideal S128x128 .f32) :
    k0_pay1 (F := Ideal) v0 v4 v7 v14 v17 v24
      = matmul dot_S1000x128_S128x128_S1000x128_1_0_0_1_n_n none
          (truncf .bf16 (pool v0 v4 v7 v14 v17) bitsLt_bf16_f32) (truncf .bf16 v24 bitsLt_bf16_f32)
          (constant (F := Ideal) S1000x128 .f32 0x00000000#32) := rfl

/-- Row `8 p + k` after the first layer is the specification's hidden row of neighbour `k` of point `p`. -/
theorem act1_apply (v0 : FVec Ideal S1000x8x128 .f32) (v4 : FVec Ideal S128x128 .f32) (v7 : FVec Ideal S1x128 .f32)
    (p : Fin 1000) (k : Fin 8) (d : Fin 128) :
    act1 v0 v4 v7 (ix2 (row p k) d)
      = Cert.Spec.hidden (fun c => v0 (ix3 p k c)) v4 (fun d => v7 (ix2 0 d)) d := by
  unfold act1 Cert.Spec.hidden
  rw [maximumf_apply, addf_apply, broadcast_apply, matmul_flat_apply, broadcastTo_1b_ab_apply, shapeCast_self, shapeCast_self]
  refine congrArg₂ max (congrArg (· + v7 (ix2 0 d)) (Finset.sum_congr rfl fun c _ => ?_)) rfl
  rw [truncf_apply, truncf_apply, flatten_apply]

/-- Row `8 p + k` after the second layer is the specification's second row. -/
theorem act2_apply (v0 : FVec Ideal S1000x8x128 .f32) (v4 : FVec Ideal S128x128 .f32) (v7 : FVec Ideal S1x128 .f32)
    (v14 : FVec Ideal S128x128 .f32) (v17 : FVec Ideal S1x128 .f32) (p : Fin 1000) (k : Fin 8) (e : Fin 128) :
    act2 v0 v4 v7 v14 v17 (ix2 (row p k) e)
      = Cert.Spec.second (fun c => v0 (ix3 p k c)) v4 (fun d => v7 (ix2 0 d)) v14 (fun e => v17 (ix2 0 e)) e := by
  unfold act2 Cert.Spec.second
  rw [addf_apply, matmul_flat_apply, broadcastTo_1b_ab_apply, shapeCast_self]
  refine congrArg (· + v17 (ix2 0 e)) (Finset.sum_congr rfl fun d _ => ?_)
  rw [truncf_apply, truncf_apply, act1_apply]

/-- The pooled row of point `p` is the specification's. -/
theorem pool_eq (v0 : FVec Ideal S1000x8x128 .f32) (v4 : FVec Ideal S128x128 .f32) (v7 : FVec Ideal S1x128 .f32)
    (v14 : FVec Ideal S128x128 .f32) (v17 : FVec Ideal S1x128 .f32) (p : Fin 1000) (e : Fin 128) :
    pool v0 v4 v7 v14 v17 (ix2 p e)
      = Cert.Spec.pooled (fun k c => v0 (ix3 p k c)) v4 (fun d => v7 (ix2 0 d)) v14 (fun e => v17 (ix2 0 e)) e := by
  unfold pool Cert.Spec.pooled
  refine (pool_apply _ _ _ _ p e).trans ?_
  refine congrArg (fun f => Finset.fold max (Ideal.ofBits .f32 0xFF800000#32) f (Finset.univ : Finset (Fin 8))) (funext fun k => ?_)
  rw [unflatten_apply, act2_apply]

/-- THE STORED VALUE AT `(p, j)`: the specification's projected feature of point `p` at channel `j`. -/
theorem pay_apply (v0 : Vec Ideal S1000x8x128 .f32) (v4 : Vec Ideal S128x128 .f32) (v7 : Vec Ideal S1x128 .f32)
    (v14 : Vec Ideal S128x128 .f32) (v17 : Vec Ideal S1x128 .f32) (v24 : Vec Ideal S128x128 .f32) (p : Fin 1000) (j : Fin 128) :
    k0_pay1 (F := Ideal) v0 v4 v7 v14 v17 v24 (ix2 p j)
      = Cert.Spec.project (fun k c => v0 (ix3 p k c)) v4 (fun d => v7 (ix2 0 d)) v14 (fun e => v17 (ix2 0 e)) v24 j := by
  rw [pay_eq, matmul_pts_apply]
  unfold Cert.Spec.project
  refine Finset.sum_congr rfl fun e _ => ?_
  rw [truncf_apply, truncf_apply, pool_eq]

end Cert.KernelIdeal.Pay

end
-- ==== Proof.SpecArr.lean ====
/-
  The projected point features of all 50000 points as one array: row r is the point network of Spec.lean applied to
  point r's eight neighbour rows.
-/
import proofs.«104351_j4758823764634_1_alg».proof.Proof.Spec

noncomputable section

namespace Cert.Spec

open Idealize.ShloMosaic Idealize.ShloMosaic.ValueIdx

/-- The [50000,128] array of projected point features, from the gathered neighbour features [50000,8,128], the three
    weight matrices and the two bias vectors. -/
def xwArr (GF : (⟨3, ![50000, 8, 128]⟩ : Shape).Idx → EReal) (W1 : Mat → EReal) (b1 : (⟨1, ![128]⟩ : Shape).Idx → EReal)
    (W2 : Mat → EReal) (b2 : (⟨1, ![128]⟩ : Shape).Idx → EReal) (Wg : Mat → EReal) :
    (⟨2, ![50000, 128]⟩ : Shape).Idx → EReal :=
  fun i => project (fun k ch => GF (ix3 (⟨(i 0).val, idx2_lt0 i⟩ : Fin 50000) k ch)) W1 (fun d => b1 (ix1 d))
    W2 (fun e => b2 (ix1 e)) Wg (⟨(i 1).val, idx2_lt1 i⟩ : Fin 128)

/-- The array at an index whose coordinates are `r` and `q`. -/
theorem xwArr_at (GF : (⟨3, ![50000, 8, 128]⟩ : Shape).Idx → EReal) (W1 : Mat → EReal) (b1 : (⟨1, ![128]⟩ : Shape).Idx → EReal)
    (W2 : Mat → EReal) (b2 : (⟨1, ![128]⟩ : Shape).Idx → EReal) (Wg : Mat → EReal)
    (i : (⟨2, ![50000, 128]⟩ : Shape).Idx) (r : Fin 50000) (q : Fin 128) (hr : (i 0).val = r.val) (hq : (i 1).val = q.val) :
    xwArr GF W1 b1 W2 b2 Wg i
      = project (fun k ch => GF (ix3 r k ch)) W1 (fun d => b1 (ix1 d)) W2 (fun e => b2 (ix1 e)) Wg q := by
  have e0 : (⟨(i 0).val, idx2_lt0 i⟩ : Fin 50000) = r := Fin.ext hr
  have e1 : (⟨(i 1).val, idx2_lt1 i⟩ : Fin 128) = q := Fin.ext hq
  unfold xwArr
  rw [e0, e1]

end Cert.Spec

end
-- ==== Proof.ValueKI.lean ====
/-
  The projected-feature array the region of the idealized kernel program leaves, at the ideal instance, as one
  function of the arrays the region found.

  Point `t` writes back the body's result on its input blocks.  Entry (p, q) of that result is the point network
  (Spec.lean) of the eight neighbour rows of block row p — rows of the gathered array at point 1000·t + p — with the
  weight matrices and bias rows as found: entry (1000·t + p, q) of the whole-array function.  The fifty blocks tile
  the array, so the array ends holding that function.
-/
import proofs.«104351_j4758823764634_1_alg».proof.Proof.BlocksKI
import proofs.«104351_j4758823764634_1_alg».proof.Proof.PrefixKI
import proofs.«104351_j4758823764634_1_alg».proof.Proof.PayKI
import proofs.«104351_j4758823764634_1_alg».proof.Proof.SpecArr

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The projected features of all points, from the arrays as the region finds them (the bias rows by the bias
    vectors they are reshapes of). -/
def xwK (c : Dev nD) : S50000x128.Idx → EReal :=
  Cert.Spec.xwArr (V m c main_v13) (V m c main_arg2) (m ((c : Thread nD τ).loc main_arg3))
    (V m c main_arg4) (m ((c : Thread nD τ).loc main_arg5)) (V m c main_arg6)

set_option maxHeartbeats 4000000 in
/-- What point `t` writes back is block `t` of that array. -/
theorem flushed_eq (c : Dev nD) (t : Fin cfg0.N) :
    (dats m 0 c).flushed 6 t = ((cfg0.win 6).blk t).view.read (Elt Ideal) (xwK m c) := by
  obtain ⟨-, -, -, -, -, -, -, -, -, -, -, -, -, e0, e1⟩ := index_facts t
  have hN : cfg0.N = 50 := N_0
  have ht : t.val < 50 := hN ▸ t.isLt
  show (cfg0.win 6).cut (grid0.coords t) ((dats m 0 c).after 6 t) = _
  rw [after6]
  unfold outBlock
  rw [View.canon_unit_zero zeros2]
  simp only [View.ld_unit_zero (S := S1000x8x128) zeros3, View.ld_unit_zero (S := S128x128) zeros2, View.ld_unit_zero (S := S1x128) zeros2]
  funext y
  obtain ⟨p, q, rfl⟩ : ∃ (p : Fin 1000) (q : Fin 128), y = ix2 p q := ⟨y 0, y 1, eq_ix2 y⟩
  have hp : p.val < 1000 := p.isLt
  have hr : ((((cfg0.win 6).blk t).view.emb (ix2 p q)) 0).val = 1000 * t.val + p.val := by
    show win0_6.index t (0 : Fin 2) * 1000 + 1 * p.val = _; rw [e0]; omega
  have hq : ((((cfg0.win 6).blk t).view.emb (ix2 p q)) 1).val = q.val := by
    show win0_6.index t (1 : Fin 2) * 128 + 1 * q.val = _; rw [e1]; omega
  have hf : (fun (k : Fin 8) (ch : Fin 128) => (iblk m c 0 t : Vec Ideal S1000x8x128 .f32) (ix3 p k ch))
      = fun k ch => (V m c main_v13 : S50000x8x128.Idx → EReal) (ix3 (⟨1000 * t.val + p.val, by omega⟩ : Fin 50000) k ch) :=
    funext fun k => funext fun ch => feat_apply m c t p k ch ⟨1000 * t.val + p.val, by omega⟩ rfl
  show k0_pay1 (F := Ideal) (iblk m c 0 t) (iblk m c 1 t) (iblk m c 2 t) (iblk m c 3 t) (iblk m c 4 t) (iblk m c 5 t) (ix2 p q)
      = xwK m c (((cfg0.win 6).blk t).view.emb (ix2 p q))
  refine ((Cert.KernelIdeal.Pay.pay_apply (iblk m c 0 t) (iblk m c 1 t) (iblk m c 2 t) (iblk m c 3 t) (iblk m c 4 t) (iblk m c 5 t) p q).trans ?_).trans
    (Cert.Spec.xwArr_at _ _ _ _ _ _ (((cfg0.win 6).blk t).view.emb (ix2 p q)) ⟨1000 * t.val + p.val, by omega⟩ q hr hq).symm
  rw [hf, w1_eq, w2_eq, w3_eq, w4_eq, w5_eq, V_b1, V_b2]
  refine congrArg₂ (fun b1 b2 => Cert.Spec.project _ _ b1 _ b2 _ q) (funext fun d => ?_) (funext fun e => ?_)
  · exact row_apply _ d
  · exact row_apply _ e

/-- So the projected-feature array ends holding the whole-array function. -/
theorem final_xw (c : Dev nD) : (dats m 0 c).arrAt 6 cfg0.N = xwK m c :=
  (dats m 0 c).arrAt_eq_of_cover 6 (xwK m c) (fun t _ => flushed_eq m c t) out_cover

/-- The same array from @main's arguments: the gathered features are the reference's stage function of the features
    and the two index arrays, and no host operation before the region writes a weight matrix. -/
theorem xwK_eq (c : Dev nD) : xwK m c
    = Cert.Spec.xwArr (Cert.ReferenceIdeal.ReadP.val_main_v13 (F := Ideal) (m ((c : Thread nD τ).loc main_arg0)) (m ((c : Thread nD τ).loc main_arg8)) (m ((c : Thread nD τ).loc main_arg9)))
        (m ((c : Thread nD τ).loc main_arg2)) (m ((c : Thread nD τ).loc main_arg3)) (m ((c : Thread nD τ).loc main_arg4))
        (m ((c : Thread nD τ).loc main_arg5)) (m ((c : Thread nD τ).loc main_arg6)) := by
  unfold xwK
  rw [V_feat, V_arg m c main_arg2 (by simp), V_arg m c main_arg4 (by simp), V_arg m c main_arg6 (by simp)]

end Cert.KernelIdeal.Hand

end
-- ==== Proof.RefTail.lean ====
/-
  The graph convolution after the point network, as ONE function of the projected point features, the output bias
  and the edge list.

  Both programs, once the projected features `xw` [50000,128] are there, compute
    out = segment_sum( (dinv[src] · dinv[dst]) · xw[src], dst ) + bg,
  with src and dst the two rows of the edge list followed by a self loop per point, and dinv the inverse square root
  of the in-degree (zero where the degree is not positive).  Everything but `xw` is a function of the edge list and
  the bias alone.  Here the reference's result is written as that function applied to its own projected features;
  the function is never opened again.
-/
import proofs.«104351_j4758823764634_1_alg».proof.Proof.RefReadP

noncomputable section

namespace Cert.ReferenceIdeal.Tail

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Normalised aggregation over the edges plus bias, of projected features `xw`, bias `x7` and edge list `x10`. -/
def gcn (xw : (⟨S50000x128, .f32⟩ : BufTy).Contents (Elt F)) (x7 : (⟨S128, .f32⟩ : BufTy).Contents (Elt F))
    (x10 : (⟨S2x800000, .i32⟩ : BufTy).Contents (Elt F)) : (⟨S50000x128, .f32⟩ : BufTy).Contents (Elt F) :=
  addf (Host.scatterAdd scatter_S50000x128_S850000x1_S850000x128_1_0_0_1 (val_main_v65 (F := F)) (val_main_v66 (F := F) x10)
      (mulf (val_main_v63 (F := F) x10) (Host.gather gather_S50000x128_S850000x1_S850000x128_1_0_n_n_0_1_1128 xw (val_main_v61 (F := F) x10))))
    (val_main_v69 (F := F) x7)

/-- The reference's first result is that function of its own projected features. -/
theorem out_eq (x0 : (⟨S100000x128, .f32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S50000, .i32⟩ : BufTy).Contents (Elt F)) (x9 : (⟨S50000x8, .i32⟩ : BufTy).Contents (Elt F)) (x10 : (⟨S2x800000, .i32⟩ : BufTy).Contents (Elt F)) :
    val_main_v70 (F := F) x0 x2 x3 x4 x5 x6 x7 x8 x9 x10 = gcn (val_main_v39 (F := F) x0 x2 x3 x4 x5 x6 x8 x9) x7 x10 := by
  unfold val_main_v70 val_main_v67 val_main_v64 val_main_v62 gcn
  rfl

end Cert.ReferenceIdeal.Tail

end
-- ==== Proof.TailKI.lean ====
/-
  The later lines of the idealized kernel program, read: its two results as functions of the region's output array
  and of @main's arguments.

  After the region the buffers hold: the projected-feature array as the pipeline left it, everything else as the
  region found it.  The sixty-eight later lines are the same graph-convolution operations as the reference's, on the
  same edge list and bias, so the first result is the shared function of the region's output array; the second result
  is the gather of the positions at the sampled indices, the reference's own stage function of those two arguments.
-/
import proofs.«104351_j4758823764634_1_alg».proof.Proof.FrameKI
import proofs.«104351_j4758823764634_1_alg».proof.Proof.RefTail
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ)

/-- The buffers when the region is left: the pipeline's arrays at what the proof data compute, the rest as found. -/
abbrev exitVal (c : Dev nD) : Valuation τ sig (Elt F) :=
  Pipeline.withArrays spec0 c (V0 m c) fun w => (dats m 0 c).arrAt w cfg0.N

/-- There the projected-feature array is the output window's final array, -/
theorem exit_xw (c : Dev nD) : exitVal m c (Proc.devRef .tc main_v16) = (dats m 0 c).arrAt 6 cfg0.N :=
  Pipeline.withArrays_arr spec0 launch0.win.arr_inj c _ _ 6

/-- and an argument no window stages is as launched. -/
theorem exit_arg (c : Dev nD) (b : Ref sig .tc)
    (hb : b ∈ ([main_arg1, main_arg7, main_arg8, main_arg10] : List (Ref sig .tc))) :
    exitVal m c (Proc.devRef .tc b) = m ((c : Thread nD τ).loc b) := by
  have hne : ∀ w, Pipeline.arrRef spec0 w ≠ b := by
    simp only [List.mem_cons, List.mem_nil_iff, or_false] at hb
    rcases hb with rfl | rfl | rfl | rfl <;> decide
  have harg : b ∈ ([main_arg0, main_arg1, main_arg2, main_arg3, main_arg4, main_arg5, main_arg6, main_arg7, main_arg8, main_arg9, main_arg10] : List (Ref sig .tc)) := by
    simp only [List.mem_cons, List.mem_nil_iff, or_false] at hb ⊢
    rcases hb with rfl | rfl | rfl | rfl <;> simp
  exact (Pipeline.withArrays_of_ne _ c (V0 m c) _ b hne).trans (V_arg m c b harg)

set_option maxHeartbeats 40000000 in
/-- The first result: the shared graph convolution of the region's output array, the bias and the edge list. -/
theorem out_eq (c : Dev nD) :
    Pipeline.afterTail₀ cfgs (dats m) 0 (V0 m) laterOps c main_v62
      = Cert.ReferenceIdeal.Tail.gcn (F := F) ((dats m 0 c).arrAt 6 cfg0.N) (m ((c : Thread nD τ).loc main_arg7)) (m ((c : Thread nD τ).loc main_arg10)) := by
  have h16 := exit_xw m c
  have h7 := exit_arg m c main_arg7 (by simp)
  have h10 := exit_arg m c main_arg10 (by simp)
  unfold Pipeline.afterTail₀
  show StableHlo.after (List.flatten laterOps) (exitVal m c) (Proc.devRef .tc main_v62) = _
  generalize exitVal m c = W at h16 h7 h10 ⊢
  simp only [laterOps, hostOps1, hostOps1_1, hostOps1_2, List.flatten_cons, List.flatten_nil, List.append_nil, List.cons_append, List.nil_append]
  after_results
  rw [h16, h7, h10]
  rfl

set_option maxHeartbeats 40000000 in
/-- The second result: the positions gathered at the sampled indices. -/
theorem pos_eq (c : Dev nD) :
    Pipeline.afterTail₀ cfgs (dats m) 0 (V0 m) laterOps c main_v69
      = Cert.ReferenceIdeal.ReadP.val_main_v77 (F := F) (m ((c : Thread nD τ).loc main_arg1)) (m ((c : Thread nD τ).loc main_arg8)) := by
  have h1 := exit_arg m c main_arg1 (by simp)
  have h8 := exit_arg m c main_arg8 (by simp)
  unfold Pipeline.afterTail₀
  show StableHlo.after (List.flatten laterOps) (exitVal m c) (Proc.devRef .tc main_v69) = _
  generalize exitVal m c = W at h1 h8 ⊢
  simp only [laterOps, hostOps1, hostOps1_1, hostOps1_2, List.flatten_cons, List.flatten_nil, List.append_nil, List.cons_append, List.nil_append]
  after_results
  rw [h1, h8]
  rfl

end Cert.KernelIdeal.Hand

end
-- ==== Proof.RefXw.lean ====
/-
  The reference's projected point feature, read at one point and one output channel.

  For point `r` the reference gathers the eight neighbours' 128-channel rows `G k c`, sends every row through
    hidden  d = max (Σ_c G k c · W1[c,d] + b1[d]) 0,
    second  e = Σ_d hidden d · W2[d,e] + b2[e],
  takes the maximum of `second e` over the eight neighbours starting from −∞, and multiplies the pooled row by the
  convolution's weight: project j = Σ_e pooled e · Wg[e,j]. Each layer below reads the corresponding array of the
  reference at coordinates and finds the specification's function of the gathered rows; the gather itself is never
  opened.
-/
import proofs.«104351_j4758823764634_1_alg».proof.Proof.RefReadP
import proofs.«104351_j4758823764634_1_alg».proof.Proof.Spec
import Idealize.ShloMosaic.Lib.ValueIdx
import Idealize.ShloMosaic.PureOps.Ideal.Laws
import Idealize.ShloMosaic.PureOps.Reduce

noncomputable section

namespace Cert.ReferenceIdeal.Xw

open Cert.ReferenceIdeal Cert.ReferenceIdeal.ReadP Idealize.ShloMosaic Idealize.ShloMosaic.ValueIdx

/-! ## First linear layer and the rectifier -/

/-- The first contraction reads the gathered rows at (r, k, c): the point and neighbour stay, the channel is summed. -/
theorem lidx14 (r : Fin 50000) (k : Fin 8) (d c : Fin 128) : lidx_main_v14 (ix3 r k d) c = ix3 r k c :=
  funext fun a => Fin.ext (by match a with | ⟨0, _⟩ => rfl | ⟨1, _⟩ => rfl | ⟨2, _⟩ => rfl)

/-- … and the first weight at (c, d). -/
theorem ridx14 (r : Fin 50000) (k : Fin 8) (d c : Fin 128) : ridx_main_v14 (ix3 r k d) c = ix2 c d :=
  funext fun a => Fin.ext (by match a with | ⟨0, _⟩ => rfl | ⟨1, _⟩ => rfl)

/-- The first bias, broadcast over points and neighbours, is read at the output channel d. -/
theorem idx1516 (r : Fin 50000) (k : Fin 8) (d : Fin 128) : idx_main_v15 (idx_main_v16 (ix3 r k d)) = ix1 d :=
  funext fun a => Fin.ext (by match a with | ⟨0, _⟩ => rfl)

/-- The rectified first layer at (r, k, d) is `hidden` of neighbour k's gathered row. -/
theorem hidden_apply (x0 : (⟨S100000x128, .f32⟩ : BufTy).Contents (Elt Ideal)) (x2 : (⟨S128x128, .f32⟩ : BufTy).Contents (Elt Ideal))
    (x3 : (⟨S128, .f32⟩ : BufTy).Contents (Elt Ideal)) (x8 : (⟨S50000, .i32⟩ : BufTy).Contents (Elt Ideal))
    (x9 : (⟨S50000x8, .i32⟩ : BufTy).Contents (Elt Ideal)) (r : Fin 50000) (k : Fin 8) (d : Fin 128) :
    val_main_v18 (F := Ideal) x0 x2 x3 x8 x9 (ix3 r k d)
      = Cert.Spec.hidden (fun c => val_main_v13 (F := Ideal) x0 x8 x9 (ix3 r k c)) x2 (fun d => x3 (ix1 d)) d := by
  rw [val_main_v18_apply, val_main_v17_apply, val_main_v14_apply, val_main_v16_apply, val_main_v15_apply,
    val_main_call0_v0_apply, val_main_call0_cst_apply]
  generalize val_main_v13 (F := Ideal) x0 x8 x9 = GF
  unfold Cert.Spec.hidden
  simp only [Ideal.maximumf_def, Ideal.addf_def, Ideal.ofBits_def, lidx14, ridx14, idx1516]

/-! ## Second linear layer -/

/-- The second contraction reads the hidden rows at (r, k, d) … -/
theorem lidx19 (r : Fin 50000) (k : Fin 8) (e d : Fin 128) : lidx_main_v19 (ix3 r k e) d = ix3 r k d :=
  funext fun a => Fin.ext (by match a with | ⟨0, _⟩ => rfl | ⟨1, _⟩ => rfl | ⟨2, _⟩ => rfl)

/-- … and the second weight at (d, e). -/
theorem ridx19 (r : Fin 50000) (k : Fin 8) (e d : Fin 128) : ridx_main_v19 (ix3 r k e) d = ix2 d e :=
  funext fun a => Fin.ext (by match a with | ⟨0, _⟩ => rfl | ⟨1, _⟩ => rfl)

/-- The second bias, broadcast over points and neighbours, is read at the output channel e. -/
theorem idx2021 (r : Fin 50000) (k : Fin 8) (e : Fin 128) : idx_main_v20 (idx_main_v21 (ix3 r k e)) = ix1 e :=
  funext fun a => Fin.ext (by match a with | ⟨0, _⟩ => rfl)

/-- The second layer at (r, k, e) is `second` of neighbour k's gathered row. -/
theorem second_apply (x0 : (⟨S100000x128, .f32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal))
    (x5 : (⟨S128, .f32⟩ : BufTy).Contents (Elt Ideal)) (x8 : (⟨S50000, .i32⟩ : BufTy).Contents (Elt Ideal))
    (x9 : (⟨S50000x8, .i32⟩ : BufTy).Contents (Elt Ideal)) (r : Fin 50000) (k : Fin 8) (e : Fin 128) :
    val_main_v22 (F := Ideal) x0 x2 x3 x4 x5 x8 x9 (ix3 r k e)
      = Cert.Spec.second (fun c => val_main_v13 (F := Ideal) x0 x8 x9 (ix3 r k c)) x2 (fun d => x3 (ix1 d)) x4
          (fun e => x5 (ix1 e)) e := by
  rw [val_main_v22_apply, val_main_v19_apply, val_main_v21_apply, val_main_v20_apply]
  unfold Cert.Spec.second
  simp only [Ideal.addf_def, lidx19, ridx19, idx2021, hidden_apply]

/-! ## The maximum over the eight neighbours -/

/-- Over result index (r, e), the source index with neighbour coordinate k inserted on axis 1 is (r, k, e). -/
theorem lift23 (h : S50000x8x128.Reduces [1] S50000x128) (r : Fin 50000) (e : Fin 128) (k : Fin 8) :
    h.lift (ix2 r e) k = ix3 r k e :=
  funext fun a => Fin.ext (by match a with | ⟨0, _⟩ => rfl | ⟨1, _⟩ => rfl | ⟨2, _⟩ => rfl)

/-- The reduction over axis 1 at (r, e) is the fold of `max` from −∞ over the eight neighbours' second-layer values:
    `pooled` of the point's gathered rows. -/
theorem pooled_apply (x0 : (⟨S100000x128, .f32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal))
    (x5 : (⟨S128, .f32⟩ : BufTy).Contents (Elt Ideal)) (x8 : (⟨S50000, .i32⟩ : BufTy).Contents (Elt Ideal))
    (x9 : (⟨S50000x8, .i32⟩ : BufTy).Contents (Elt Ideal)) (r : Fin 50000) (e : Fin 128) :
    val_main_v23 (F := Ideal) x0 x2 x3 x4 x5 x8 x9 (ix2 r e)
      = Cert.Spec.pooled (fun k c => val_main_v13 (F := Ideal) x0 x8 x9 (ix3 r k c)) x2 (fun d => x3 (ix1 d)) x4
          (fun e => x5 (ix1 e)) e := by
  have h : S50000x8x128.Reduces [1] S50000x128 := by decide
  unfold val_main_v23
  rw [Host.reduce_eq_fold_single (FloatOps.maximumf (F := Ideal) (φ := .f32)) _ _
    Gen.reducesTo_S50000x8x128_S50000x128_d1 h Gen.h_S_ (ix2 r e)]
  unfold Cert.Spec.pooled
  rw [val_main_cst_apply]
  show Finset.fold max (Ideal.ofBits .f32 0xFF800000#32)
      (fun k : Fin 8 => val_main_v22 (F := Ideal) x0 x2 x3 x4 x5 x8 x9 (h.lift (ix2 r e) k)) Finset.univ = _
  refine Finset.fold_congr (fun k _ => ?_)
  rw [lift23 h r e k, second_apply]

/-! ## The projection by the convolution's weight -/

/-- The last contraction reads the pooled rows at (r, e) … -/
theorem lidx39 (r : Fin 50000) (j e : Fin 128) : lidx_main_v39 (ix2 r j) e = ix2 r e :=
  funext fun a => Fin.ext (by match a with | ⟨0, _⟩ => rfl | ⟨1, _⟩ => rfl)

/-- … and the convolution's weight at (e, j). -/
theorem ridx39 (r : Fin 50000) (j e : Fin 128) : ridx_main_v39 (ix2 r j) e = ix2 e j :=
  funext fun a => Fin.ext (by match a with | ⟨0, _⟩ => rfl | ⟨1, _⟩ => rfl)

/-- The reference's projected feature at point r and channel j is `project` of the point's gathered rows. -/
theorem xw_apply (x0 : (⟨S100000x128, .f32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal))
    (x5 : (⟨S128, .f32⟩ : BufTy).Contents (Elt Ideal)) (x6 : (⟨S128x128, .f32⟩ : BufTy).Contents (Elt Ideal))
    (x8 : (⟨S50000, .i32⟩ : BufTy).Contents (Elt Ideal)) (x9 : (⟨S50000x8, .i32⟩ : BufTy).Contents (Elt Ideal))
    (r : Fin 50000) (j : Fin 128) :
    val_main_v39 (F := Ideal) x0 x2 x3 x4 x5 x6 x8 x9 (ix2 r j)
      = Cert.Spec.project (fun k c => val_main_v13 (F := Ideal) x0 x8 x9 (ix3 r k c)) x2 (fun d => x3 (ix1 d)) x4
          (fun e => x5 (ix1 e)) x6 j := by
  rw [val_main_v39_apply]
  unfold Cert.Spec.project
  simp only [lidx39, ridx39, pooled_apply]

end Cert.ReferenceIdeal.Xw

end
-- ==== Proof.RefArr.lean ====
/-
  The reference's projected point features, at the ideal instance, are the whole-array function of SpecArr.lean of
  its gathered neighbour features, weight matrices and bias vectors: row by row the point network.
-/
import proofs.«104351_j4758823764634_1_alg».proof.Proof.RefXw
import proofs.«104351_j4758823764634_1_alg».proof.Proof.SpecArr

noncomputable section

namespace Cert.ReferenceIdeal.Xw

open Cert.ReferenceIdeal Cert.ReferenceIdeal.ReadP Idealize.ShloMosaic Idealize.ShloMosaic.ValueIdx

theorem xw_eq (x0 : (⟨S100000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x8 : (⟨S50000, .i32⟩ : BufTy).Contents (Elt Ideal)) (x9 : (⟨S50000x8, .i32⟩ : BufTy).Contents (Elt Ideal)) :
    val_main_v39 (F := Ideal) x0 x2 x3 x4 x5 x6 x8 x9
      = Cert.Spec.xwArr (val_main_v13 (F := Ideal) x0 x8 x9) x2 x3 x4 x5 x6 := by
  funext i
  obtain ⟨r, j, rfl⟩ : ∃ (r : Fin 50000) (j : Fin 128), i = ix2 r j := ⟨i 0, i 1, eq_ix2 i⟩
  rw [xw_apply, Cert.Spec.xwArr_at _ _ _ _ _ _ (ix2 r j) r j rfl rfl]

end Cert.ReferenceIdeal.Xw

end
-- ==== Proof.lean ====
/-
  The certificate's proof: the kernel program and its idealization run to the end with their arguments unchanged,
  so does the reference, and at the ideal instance the idealized kernel and the reference return equal results.

  Why the results are equal.  Both programs gather each sampled point's eight neighbours' feature rows, send every
  row through Linear → ReLU → Linear, take the maximum over the eight neighbours, and multiply by the graph
  convolution's weight; the kernel does it on 1000 points per grid step with operands rounded to bf16 for the matrix
  unit, a rounding that is the identity on extended reals, and a matrix product into a zero accumulator is the same
  sum of 128 products as the reference's contraction.  So the array of projected features is one function of the
  arguments on both sides (SpecArr.lean).  What follows — degrees, normalisation, the scatter-add over the edges, the
  bias — is the same host computation applied to that array (RefTail.lean), and the second result is the same gather
  of the positions.  No law of arithmetic beyond the order of two finite sums is used, so the precondition (finite
  inputs) is never opened.  The ideal pass rewrote nothing, so the idealization claim is trivial.
-/
import proofs.«104351_j4758823764634_1_alg».proof.Defs
import proofs.«104351_j4758823764634_1_alg».proof.Proof.Gen.Kernel
import proofs.«104351_j4758823764634_1_alg».proof.Proof.Gen.KernelIdeal
import proofs.«104351_j4758823764634_1_alg».proof.Proof.Gen.ReferenceIdeal
import proofs.«104351_j4758823764634_1_alg».proof.Proof.Gen.Pre_finite_inputs
import proofs.«104351_j4758823764634_1_alg».proof.Proof.FrameK
import proofs.«104351_j4758823764634_1_alg».proof.Proof.FrameKI
import proofs.«104351_j4758823764634_1_alg».proof.Proof.ArgsKI
import proofs.«104351_j4758823764634_1_alg».proof.Proof.ValueKI
import proofs.«104351_j4758823764634_1_alg».proof.Proof.TailKI
import proofs.«104351_j4758823764634_1_alg».proof.Proof.RefRunP
import proofs.«104351_j4758823764634_1_alg».proof.Proof.RefReadP
import proofs.«104351_j4758823764634_1_alg».proof.Proof.RefArr
import proofs.«104351_j4758823764634_1_alg».proof.Proof.RefTail
import Idealize.ShloMosaic.Adequacy
import Idealize.ShloMosaic.Init

noncomputable section

open Idealize.ShloMosaic Idealize.ShloMosaic.TcCoe Idealize.SL.Sem

/-! ## The idealized kernel program's run, read -/

namespace Cert.KernelIdeal.Hand

open Cert.KernelIdeal Cert.KernelIdeal.Gen

/-- At the ideal instance: the first result is the shared graph convolution of the projected-feature array (itself
    the whole-array function of the arguments), the second the positions gathered at the sampled indices, and the
    arguments are unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v62)
          = Cert.ReferenceIdeal.Tail.gcn (F := Ideal) (xwK m c) (m ((c.tc : Thread nD τ).loc main_arg7)) (m ((c.tc : Thread nD τ).loc main_arg10))
      ∧ r.2.mem ((c.tc : Thread nD τ).loc main_v69)
          = Cert.ReferenceIdeal.ReadP.val_main_v77 (F := Ideal) (m ((c.tc : Thread nD τ).loc main_arg1)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨(((h c).2 main_v62 (Pipeline.mem_restRefs_of main_v62 (by decide) (by decide))).trans (out_eq m c)).trans (by rw [final_xw]),
        ((h c).2 main_v69 (Pipeline.mem_restRefs_of main_v69 (by decide) (by decide))).trans (pos_eq m c),
        post_args m (dats m) (A_eq m) r h c⟩)
    (run_main m ρ)

end Cert.KernelIdeal.Hand

/-! ## The claims -/

namespace Cert.Proof

theorem frame_kernel : Cert.frame_Kernel := fun m ρ _ => Cert.Kernel.Hand.frame (F := Bits) m ρ

theorem frame_kernelIdeal : Cert.frame_KernelIdeal := fun m ρ _ => Cert.KernelIdeal.Hand.frame (F := Ideal) m ρ

/-- The reference is a host program: its run read back, the results dropped. -/
theorem frame_reference : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

/-- Both runs end with the first result at the shared graph convolution of ONE projected-feature array and the second
    at one gather of the positions, of arguments that agree. -/
theorem algebraic : Cert.algebraic_KernelIdeal_ReferenceIdeal := by
  intro m ρ m' ρ' _ hagree
  refine ⟨fun c => Cert.ReferenceIdeal.Tail.gcn (F := Ideal) (Cert.KernelIdeal.Hand.xwK m c) (m ((c.tc : Thread Cert.KernelIdeal.nD Cert.KernelIdeal.τ).loc Cert.KernelIdeal.main_arg7)) (m ((c.tc : Thread Cert.KernelIdeal.nD Cert.KernelIdeal.τ).loc Cert.KernelIdeal.main_arg10)),
    fun c => Cert.ReferenceIdeal.ReadP.val_main_v77 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg8)),
    Cert.KernelIdeal.Hand.run_value m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · obtain ⟨h0, h1, h2, h3, h4, h5, h6, h7, h8, h9, h10⟩ := hagree c
    beta_reduce
    rw [Cert.ReferenceIdeal.ReadP.val_main_v70_eq, Cert.ReferenceIdeal.Tail.out_eq, Cert.ReferenceIdeal.Xw.xw_eq,
      Cert.KernelIdeal.Hand.xwK_eq, h0, h2, h3, h4, h5, h6, h7, h8, h9, h10]
  · obtain ⟨h0, h1, h2, h3, h4, h5, h6, h7, h8, h9, h10⟩ := hagree c
    rw [h1, h8]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
